-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S640000x64 : Shape := ⟨2, ![640000, 64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S1 : Shape := ⟨1, ![1]⟩
abbrev S_ : Shape := ⟨0, ![]⟩
abbrev S1x640000 : Shape := ⟨2, ![1, 640000]⟩
abbrev S640000 : Shape := ⟨1, ![640000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000x64 : S_.BroadcastsInDim S640000x64 (![] : Fin 0 → Fin S640000x64.rank)
  reducesTo_S640000x64_S_d0_1 : S640000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S1 : S_.BroadcastsInDim S1 (![] : Fin 0 → Fin S1.rank)
  reducesTo_S1_S_d0 : S1.ReducesTo [0] S_
  slices_S2x640000_S1x640000_1_0 : S2x640000.Slices ![1, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part3 {F : FTy → Type} [FloatOps F] (main_arg1 : IVec S2x640000 32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : IVec S1x640000 32 := (extractStridedSlice S1x640000 ![1, 0] · slices_S2x640000_S1x640000_1_0) main_arg1
  let main_v55 : IVec S640000 32 := shapeCast S640000 main_v54 shapeCasts_S1x640000_S640000
  let main_c_20 : IVec S_ 32 := constantI S_ 32 4294867296#32
  let main_v56 : IVec S640000 32 := broadcastInDim S640000 ![] bcast_S_S640000 main_c_20
  let main_v57 : IVec S640000 1 := cmpi .sge main_v55 main_v56
  let main_v58 : IVec S1x640000 32 := (extractStridedSlice S1x640000 ![1, 0] · slices_S2x640000_S1x640000_1_0) main_arg1
  let main_v59 : IVec S640000 32 := shapeCast S640000 main_v58 shapeCasts_S1x640000_S640000
  let main_c_21 : IVec S_ 32 := constantI S_ 32 100000#32
  let main_v60 : IVec S640000 32 := broadcastInDim S640000 ![] bcast_S_S640000 main_c_21
  let main_v61 : IVec S640000 1 := cmpi .slt main_v59 main_v60
  let main_v62 : IVec S640000 1 := andi main_v57 main_v61
  let main_c_22 : IVec S_ 1 := constantI S_ 1 1#1
  let main_v63 : IVec S_ 1 := (fun x v => Host.reduce IntOp.andi x v reducesTo_S640000_S_d0 h_S_) main_v62 main_c_22
  let main_v64 : IVec S_ 1 := andi main_v53 main_v63
  main_v64

def fn_part2 {F : FTy → Type} [FloatOps F] (main_arg1 : IVec S2x640000 32) (main_arg8 : FVec F S256 .f32) (main_arg9 : FVec F S256x128 .f32) (main_arg10 : FVec F S128 .f32) (main_arg11 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg1 main_v48 main_v49 main_v50

def fn_part1 {F : FTy → Type} [FloatOps F] (main_arg1 : IVec S2x640000 32) (main_arg5 : FVec F S128x256 .f32) (main_arg6 : FVec F S256 .f32) (main_arg7 : FVec F S256 .f32) (main_arg8 : FVec F S256 .f32) (main_arg9 : FVec F S256x128 .f32) (main_arg10 : FVec F S128 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S100000x128 .f32) (main_arg1 : IVec S2x640000 32) (main_arg2 : FVec F S640000x64 .f32) (main_arg3 : FVec F S64x128 .f32) (main_arg4 : FVec F S128 .f32) (main_arg5 : FVec F S128x256 .f32) (main_arg6 : FVec F S256 .f32) (main_arg7 : FVec F S256 .f32) (main_arg8 : FVec F S256 .f32) (main_arg9 : FVec F S256x128 .f32) (main_arg10 : FVec F S128 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S640000x64 .f32 := Host.absf main_arg2
  let main_cst_0 : FVec F S_ .f32 := constant S_ .f32 0x7F800000#32
  let main_v5 : FVec F S640000x64 .f32 := broadcastInDim S640000x64 ![] bcast_S_S640000x64 main_cst_0
  let main_v6 : IVec S640000x64 1 := cmpf .olt main_v4 main_v5
  let main_c_1 : IVec S_ 1 := constantI S_ 1 1#1
  let main_v7 : IVec S_ 1 := (fun x v => Host.reduce IntOp.andi x v reducesTo_S640000x64_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_v13 main_v16
-- ==== Kernel.lean ====
abbrev S100000x128 : Shape := ⟨2, ![100000, 128]⟩
abbrev S2x640000 : Shape := ⟨2, ![2, 640000]⟩
abbrev S640000x64 : Shape := ⟨2, ![640000, 64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x1 : Shape := ⟨2, ![1, 1]⟩
abbrev S640000x128 : Shape := ⟨2, ![640000, 128]⟩
abbrev S1x128 : Shape := ⟨2, ![1, 128]⟩
abbrev S8000x64 : Shape := ⟨2, ![8000, 64]⟩
abbrev S8000x128 : Shape := ⟨2, ![8000, 128]⟩
abbrev S1x256 : Shape := ⟨2, ![1, 256]⟩
abbrev S2000x128 : Shape := ⟨2, ![2000, 128]⟩
abbrev S2000x256 : Shape := ⟨2, ![2000, 256]⟩
abbrev S2000 : Shape := ⟨1, ![2000]⟩
abbrev S2000x1 : Shape := ⟨2, ![2000, 1]⟩

abbrev nBuf : Space → Nat
  | .hbm => 51
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S640000x64, .f32⟩
  | .hbm, ⟨3, _⟩ => ⟨S64x128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1, .f32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S1, .i32⟩
  | .hbm, ⟨23, _⟩ => ⟨S_, .i32⟩
  | .hbm, ⟨24, _⟩ => ⟨S640000x1, .i32⟩
  | .hbm, ⟨25, _⟩ => ⟨S640000x1, .i1⟩
  | .hbm, ⟨26, _⟩ => ⟨S1x1, .i32⟩
  | .hbm, ⟨27, _⟩ => ⟨S640000x1, .i32⟩
  | .hbm, ⟨28, _⟩ => ⟨S640000x1, .i1⟩
  | .hbm, ⟨29, _⟩ => ⟨S640000x1, .i1⟩
  | .hbm, ⟨30, _⟩ => ⟨S_, .i1⟩
  | .hbm, ⟨31, _⟩ => ⟨S640000, .i1⟩
  | .hbm, ⟨32, _⟩ => ⟨S640000x128, .f32⟩
  | .hbm, ⟨33, _⟩ => ⟨S640000x128, .i1⟩
  | .hbm, ⟨34, _⟩ => ⟨S_, .f32⟩
  | .hbm, ⟨35, _⟩ => ⟨S640000x128, .f32⟩
  | .hbm, ⟨36, _⟩ => ⟨S640000x128, .f32⟩
  | .hbm, ⟨37, _⟩ => ⟨S1x128, .f32⟩
  | .hbm, ⟨38, _⟩ => ⟨S640000x128, .f32⟩
  | .hbm, ⟨39, _⟩ => ⟨S1x640000, .i32⟩
  | .hbm, ⟨40, _⟩ => ⟨S640000, .i32⟩
  | .hbm, ⟨41, _⟩ => ⟨S_, .f32⟩
  | .hbm, ⟨42, _⟩ => ⟨S100000x128, .f32⟩
  | .hbm, ⟨43, _⟩ => ⟨S640000x1, .i32⟩
  | .hbm, ⟨44, _⟩ => ⟨S100000x128, .f32⟩
  | .hbm, ⟨45, _⟩ => ⟨S1x1, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S1x128, .f32⟩
  | .hbm, ⟨50, _⟩ => ⟨S100000x128, .f32⟩
  | .local _ .vmem, ⟨0, _⟩ => ⟨S8000x64, .f32⟩
  | .local _ .vmem, ⟨1, _⟩ => ⟨S8000x64, .f32⟩
  | .local _ .vmem, ⟨2, _⟩ => ⟨S8000x128, .f32⟩
  | .local _ .vmem, ⟨3, _⟩ => ⟨S8000x128, .f32⟩
  | .local _ .vmem, ⟨4, _⟩ => ⟨S64x128, .f32⟩
  | .local _ .vmem, ⟨5, _⟩ => ⟨S1x128, .f32⟩
  | .local _ .vmem, ⟨6, _⟩ => ⟨S8000x128, .f32⟩
  | .local _ .vmem, ⟨7, _⟩ => ⟨S8000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S1x1, .f32⟩
  | .local _ .vmem, ⟨13, _⟩ => ⟨S128x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S256x128, .f32⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_cst : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x640000_S1x640000_1_0 : S2x640000.Slices ![1, 0] S1x640000
  shapeCasts_S1x640000_S640000 : S1x640000.ShapeCasts S640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  shapeCasts_S128_S1x128 : S128.ShapeCasts S1x128
  inb_S8000x64_S8000x64_0_0 : ∀ a, (![0, 0] : Fin 2 → Nat) a + S8000x64.size a ≤ S8000x64.size a
  h_S8000x64 : 0 < S8000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  slices_S2x640000_S1x640000_0_0 : S2x640000.Slices ![0, 0] S1x640000
  bcast_S_S100000x128 : S_.BroadcastsInDim S100000x128 (![] : Fin 0 → Fin S100000x128.rank)
  shapeCasts_S1_S1x1 : S1.ShapeCasts S1x1
  shapeCasts_S256_S1x256 : S256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2000x128_S2000x128_0_0 : ∀ a, (![0, 0] : Fin 2 → Nat) a + S2000x128.size a ≤ S2000x128.size a
  h_S2000x128 : 0 < S2000x128.numel
  broadcasts_S1x1_S2000x128 : S1x1.Broadcasts S2000x128
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S256x128_S256x128_0_0 : ∀ a, (![0, 0] : Fin 2 → Nat) a + S256x128.size a ≤ S256x128.size a
  h_S256x128 : 0 < S256x128.numel
  broadcasts_S1x128_S2000x128 : S1x128.Broadcasts S2000x128
  gather_S100000x128_S640000x1_S640000x128_1_0_n_n_0_1_1128_wf : GatherDims.WF S100000x128 S640000x1 S640000x128 [1] [0] [] [0] [] 1 ![1, 128]
  dot_S8000x64_S64x128_S8000x128_1_0_0_1_n_n_wf : DotDims.WF S8000x64 S64x128 S8000x128 [1] [0] [0] [1] [] []
  scatter_S100000x128_S640000x1_S640000x128_1_0_0_1_wf : ScatterDims.WF S100000x128 S640000x1 S640000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S640000x64.size a
  hwx0_0 : ∀ i : grid0.Coords, EltTy.bits .f32 = 32 ∨ (Rect.block (s := S640000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S640000x128.size a
  hwx0_1 : ∀ i : grid0.Coords, EltTy.bits .f32 = 32 ∨ (Rect.block (s := S640000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x128.size a ≤ S640000x128.size a
  hwx0_4 : ∀ i : grid0.Coords, EltTy.bits .f32 = 32 ∨ (Rect.block (s := S640000x128) S8000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x128.size a ≤ S256x128.size a
  hwx1_7 : ∀ i : grid1.Coords, EltTy.bits .f32 = 32 ∨ (Rect.block (s := S256x128) S256x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S100000x128.size a
  hwx1_9 : ∀ i : grid1.Coords, EltTy.bits .f32 = 32 ∨ (Rect.block (s := S100000x128) S2000x128.size (cc1_transform_9 i) (hinb1_9 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg2) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S8000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S256x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v14) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v15) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S640000x64 : Shape := ⟨2, ![640000, 64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S1 : Shape := ⟨1, ![1]⟩
abbrev S640000x128 : Shape := ⟨2, ![640000, 128]⟩
abbrev S1x128 : Shape := ⟨2, ![1, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x1 : Shape := ⟨2, ![1, 1]⟩
abbrev S100000x256 : Shape := ⟨2, ![100000, 256]⟩
abbrev S1x256 : Shape := ⟨2, ![1, 256]⟩
abbrev S100000 : Shape := ⟨1, ![100000]⟩
abbrev S100000x1 : Shape := ⟨2, ![100000, 1]⟩

abbrev nBuf : Space → Nat
  | .hbm => 84
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S640000x64, .f32⟩
  | .hbm, ⟨3, _⟩ => ⟨S64x128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1, .f32⟩
  | .hbm, ⟨12, _⟩ => ⟨S640000x128, .f32⟩
  | .hbm, ⟨13, _⟩ => ⟨S1x128, .f32⟩
  | .hbm, ⟨14, _⟩ => ⟨S640000x128, .f32⟩
  | .hbm, ⟨15, _⟩ => ⟨S640000x128, .f32⟩
  | .hbm, ⟨16, _⟩ => ⟨S1x640000, .i32⟩
  | .hbm, ⟨17, _⟩ => ⟨S640000, .i32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S640000x128, .f32⟩
  | .hbm, ⟨28, _⟩ => ⟨S_, .f32⟩
  | .hbm, ⟨29, _⟩ => ⟨S640000x128, .f32⟩
  | .hbm, ⟨30, _⟩ => ⟨S640000x128, .f32⟩
  | .hbm, ⟨31, _⟩ => ⟨S1x640000, .i32⟩
  | .hbm, ⟨32, _⟩ => ⟨S640000, .i32⟩
  | .hbm, ⟨33, _⟩ => ⟨S_, .f32⟩
  | .hbm, ⟨34, _⟩ => ⟨S100000x128, .f32⟩
  | .hbm, ⟨35, _⟩ => ⟨S640000x1, .i32⟩
  | .hbm, ⟨36, _⟩ => ⟨S100000x128, .f32⟩
  | .hbm, ⟨37, _⟩ => ⟨S_, .f32⟩
  | .hbm, ⟨38, _⟩ => ⟨S1, .f32⟩
  | .hbm, ⟨39, _⟩ => ⟨S1, .f32⟩
  | .hbm, ⟨40, _⟩ => ⟨S1x1, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x256, .f32⟩
  | .hbm, ⟨45, _⟩ => ⟨S1x256, .f32⟩
  | .hbm, ⟨46, _⟩ => ⟨S100000x256, .f32⟩
  | .hbm, ⟨47, _⟩ => ⟨S100000x256, .f32⟩
  | .hbm, ⟨48, _⟩ => ⟨S_, .f32⟩
  | .hbm, ⟨49, _⟩ => ⟨S100000, .f32⟩
  | .hbm, ⟨50, _⟩ => ⟨S100000x1, .f32⟩
  | .hbm, ⟨51, _⟩ => ⟨S_, .f32⟩
  | .hbm, ⟨52, _⟩ => ⟨S100000x1, .f32⟩
  | .hbm, ⟨53, _⟩ => ⟨S100000x1, .f32⟩
  | .hbm, ⟨54, _⟩ => ⟨S100000x256, .f32⟩
  | .hbm, ⟨55, _⟩ => ⟨S100000x256, .f32⟩
  | .hbm, ⟨56, _⟩ => ⟨S100000x256, .f32⟩
  | .hbm, ⟨57, _⟩ => ⟨S_, .f32⟩
  | .hbm, ⟨58, _⟩ => ⟨S100000, .f32⟩
  | .hbm, ⟨59, _⟩ => ⟨S100000x1, .f32⟩
  | .hbm, ⟨60, _⟩ => ⟨S_, .f32⟩
  | .hbm, ⟨61, _⟩ => ⟨S100000x1, .f32⟩
  | .hbm, ⟨62, _⟩ => ⟨S100000x1, .f32⟩
  | .hbm, ⟨63, _⟩ => ⟨S100000x256, .f32⟩
  | .hbm, ⟨64, _⟩ => ⟨S100000x256, .f32⟩
  | .hbm, ⟨65, _⟩ => ⟨S_, .f32⟩
  | .hbm, ⟨66, _⟩ => ⟨S100000x1, .f32⟩
  | .hbm, ⟨67, _⟩ => ⟨S100000x1, .f32⟩
  | .hbm, ⟨68, _⟩ => ⟨S100000x1, .f32⟩
  | .hbm, ⟨69, _⟩ => ⟨S100000x256, .f32⟩
  | .hbm, ⟨70, _⟩ => ⟨S100000x256, .f32⟩
  | .hbm, ⟨71, _⟩ => ⟨S1x256, .f32⟩
  | .hbm, ⟨72, _⟩ => ⟨S100000x256, .f32⟩
  | .hbm, ⟨73, _⟩ => ⟨S100000x256, .f32⟩
  | .hbm, ⟨74, _⟩ => ⟨S1x256, .f32⟩
  | .hbm, ⟨75, _⟩ => ⟨S100000x256, .f32⟩
  | .hbm, ⟨76, _⟩ => ⟨S100000x256, .f32⟩
  | .hbm, ⟨77, _⟩ => ⟨S_, .f32⟩
  | .hbm, ⟨78, _⟩ => ⟨S100000x256, .f32⟩
  | .hbm, ⟨79, _⟩ => ⟨S100000x256, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call0_cst : Ref sig .tc := ⟨.hbm, 28, rfl⟩
abbrev main_call0_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  slices_S2x640000_S1x640000_1_0 : S2x640000.Slices ![1, 0] S1x640000
  shapeCasts_S1x640000_S640000 : S1x640000.ShapeCasts S640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  slices_S2x640000_S1x640000_0_0 : S2x640000.Slices ![0, 0] S1x640000
  bcast_S_S100000x128 : S_.BroadcastsInDim S100000x128 (![] : Fin 0 → Fin S100000x128.rank)
  bcast_S_S1 : S_.BroadcastsInDim S1 (![] : Fin 0 → Fin S1.rank)
  bcast_S1_S1x1_1 : S1.BroadcastsInDim S1x1 (![1] : Fin 1 → Fin S1x1.rank)
  bcast_S1x1_S100000x128_0_1 : S1x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S100000_d1 : S100000x256.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  bcast_S_S100000x256 : S_.BroadcastsInDim S100000x256 (![] : Fin 0 → Fin S100000x256.rank)
  bcast_S1x128_S100000x128_0_1 : S1x128.BroadcastsInDim S100000x128 (![0, 1] : Fin 2 → Fin S100000x128.rank)
  dot_S640000x64_S64x128_S640000x128_1_0_0_1_n_n_wf : DotDims.WF S640000x64 S64x128 S640000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []

variable [Facts₀]

def dot_S640000x64_S64x128_S640000x128_1_0_0_1_n_n : DotDims S640000x64 S64x128 S640000x128 where
  lhsContracting := [1]
  rhsContracting := [0]
  lhsNonContracting := [0]
  rhsNonContracting := [1]
  lhsBatch := []
  rhsBatch := []
  wf := dot_S640000x64_S64x128_S640000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.HostReads.lean ====
/-
  What the host operations leave in the buffers each kernel region reads, as functions of the launch contents.
  Before the edge kernel: the gathered source rows (the rows of x at the second row of edge_index, negative indices
  counted from the end, rows whose index is out of range filled with the NaN word) and the bias as a one-row array.
  Before the node kernel: the messages summed at the first row of edge_index, and ε and the perceptron's vectors as
  one-row arrays.
-/
import proofs.«405723_j31456340476230_1_alg».proof.Proof.Gen.KernelIdeal.Frame
import Idealize.ShloMosaic.Lib.StableHlo.Run
import Idealize.ShloMosaic.PureOps.Ideal

set_option maxRecDepth 16384

noncomputable section

namespace Cert.KernelIdeal.HostReads

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg)

/-- The second row of edge_index as a column of row numbers, negative entries moved up by the number of nodes. -/
def srcIdx (ei : IVec S2x640000 32) : IVec S640000x1 32 :=
  broadcastInDim S640000x1 ![0] bcast_S640000_S640000x1_0
    (select
      (cmpi .slt (shapeCast S640000 (extractStridedSlice S1x640000 ![1, 0] ei slices_S2x640000_S1x640000_1_0) shapeCasts_S1x640000_S640000)
        (broadcastInDim S640000 ![] bcast_S_S640000 (constantI S_ 32 0#32)))
      (addi (shapeCast S640000 (extractStridedSlice S1x640000 ![1, 0] ei slices_S2x640000_S1x640000_1_0) shapeCasts_S1x640000_S640000)
        (broadcastInDim S640000 ![] bcast_S_S640000 (constantI S_ 32 100000#32)))
      (shapeCast S640000 (extractStridedSlice S1x640000 ![1, 0] ei slices_S2x640000_S1x640000_1_0) shapeCasts_S1x640000_S640000))

/-- Per edge, whether its row number in the column `idx` lies in 0 … 99999. -/
def inRange (idx : IVec S640000x1 32) : IVec S640000 1 :=
  Host.reduce IntOp.andi
    (andi (cmpi .sge idx (broadcastInDim S640000x1 ![] bcast_S_S640000x1 (constantI S_ 32 0#32)))
      (cmpi .sle idx (broadcastInDim S640000x1 ![0, 1] bcast_S1x1_S640000x1_0_1
        (broadcastInDim S1x1 ![1] bcast_S1_S1x1_1 (constantI S1 32 99999#32)))))
    (constantI S_ 1 1#1) reducesTo_S640000x1_S640000_d1 h_S_

/-- Row e of the result is row idx[e] of x where that is in range, the NaN word elsewhere. -/
def takeRowsAt (x : FVec Ideal S100000x128 .f32) (idx : IVec S640000x1 32) : FVec Ideal S640000x128 .f32 :=
  select (broadcastInDim S640000x128 ![0] bcast_S640000_S640000x128_0 (inRange idx))
    (Host.gather gather_S100000x128_S640000x1_S640000x128_1_0_n_n_0_1_1128 x idx)
    (broadcastInDim S640000x128 ![] bcast_S_S640000x128 (constant (F := Ideal) S_ .f32 0x7FC00000#32))

/-- The gathered source rows. -/
def takeRows (x : FVec Ideal S100000x128 .f32) (ei : IVec S2x640000 32) : FVec Ideal S640000x128 .f32 :=
  takeRowsAt x (srcIdx ei)

/-- The first row of edge_index as a column of row numbers. -/
def dstIdx (ei : IVec S2x640000 32) : IVec S640000x1 32 :=
  broadcastInDim S640000x1 ![0] bcast_S640000_S640000x1_0
    (shapeCast S640000 (extractStridedSlice S1x640000 ![0, 0] ei slices_S2x640000_S1x640000_0_0) shapeCasts_S1x640000_S640000)

/-- The messages summed into the zero array at the destination rows. -/
def sumAtDst (ei : IVec S2x640000 32) (msg : FVec Ideal S640000x128 .f32) : FVec Ideal S100000x128 .f32 :=
  Host.scatterAdd scatter_S100000x128_S640000x1_S640000x128_1_0_0_1
    (broadcastInDim S100000x128 ![] bcast_S_S100000x128 (constant (F := Ideal) S_ .f32 0x00000000#32)) (dstIdx ei) msg

/-! ## At the edge kernel's entry -/

theorem W3_main_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp
theorem W3_main_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp
theorem W3_main_v3 (c : Dev nD) :
    W3 m ρ c (Proc.devRef .tc main_v3) = shapeCast S1x128 (m ((c : Thread nD τ).loc main_arg4)) shapeCasts_S128_S1x128 := by
  show StableHlo.after hostOps0_2 (StableHlo.after hostOps0_1 (StableHlo.after hostOps0 (W0 m ρ c))) (Proc.devRef .tc main_v3) = _
  after_results_simp
  rfl
/-- A line of operations run in two stretches. -/
theorem after_append (A B : List (HloOp τ sig (Elt Ideal))) (V : Valuation τ sig (Elt Ideal)) :
    StableHlo.after (A ++ B) V = StableHlo.after B (StableHlo.after A V) := by
  induction A generalizing V with
  | nil => rfl
  | cons a A ih => exact ih _

/-- The gather's second stretch, from any contents: it selects on the column of row numbers it finds. -/
theorem select_stretch (V : Valuation τ sig (Elt Ideal)) :
    StableHlo.after (List.drop 8 hostOps0_1) V (Proc.devRef .tc main_v2)
      = takeRowsAt (V (Proc.devRef .tc main_arg0)) (V (Proc.devRef .tc main_call0_v5)) := by
  simp only [hostOps0_1, List.drop_succ_cons, List.drop_zero]
  after_results_simp
  simp only [TRef.toBuf, TRef.ofBuf, cast_eq]
  rfl

/-- The gather's first stretch leaves the column of row numbers. -/
theorem index_stretch (c : Dev nD) :
    StableHlo.after (List.take 8 hostOps0_1) (W1 m ρ c) (Proc.devRef .tc main_call0_v5)
      = srcIdx (m ((c : Thread nD τ).loc main_arg1)) := by
  show StableHlo.after (List.take 8 hostOps0_1) (StableHlo.after hostOps0 (W0 m ρ c)) _ = _
  simp only [hostOps0_1, hostOps0, List.take_succ_cons, List.take_zero]
  after_results_simp
  simp only [TRef.toBuf, TRef.ofBuf, cast_eq]
  rfl

theorem index_stretch_keeps (c : Dev nD) :
    StableHlo.after (List.take 8 hostOps0_1) (W1 m ρ c) (Proc.devRef .tc main_arg0) = m ((c : Thread nD τ).loc main_arg0) := by
  show StableHlo.after (List.take 8 hostOps0_1) (StableHlo.after hostOps0 (W0 m ρ c)) _ = _
  simp only [hostOps0_1, hostOps0, List.take_succ_cons, List.take_zero]
  after_results_simp

/-- At the edge kernel's entry the gathered-rows buffer holds the gathered source rows of the launch contents: the line
    that reshapes the bias does not write it, and the gather's line is its two stretches one after the other. -/
theorem W3_main_v2 (c : Dev nD) :
    W3 m ρ c (Proc.devRef .tc main_v2) = takeRows (m ((c : Thread nD τ).loc main_arg0)) (m ((c : Thread nD τ).loc main_arg1)) :=
  calc W3 m ρ c (Proc.devRef .tc main_v2)
    _ = StableHlo.after hostOps0_1 (W1 m ρ c) (Proc.devRef .tc main_v2) :=
        StableHlo.after_of_forall_not_mem (b := Proc.devRef .tc main_v2) _ _ (List.forall_iff_forall_mem.mp (by
          simp only [hostOps0_2, List.Forall, StableHlo.reshape_writes, Finset.mem_singleton]
          exact StableHlo.devRef_ne_of_ne (by decide)))
    _ = StableHlo.after (List.take 8 hostOps0_1 ++ List.drop 8 hostOps0_1) (W1 m ρ c) (Proc.devRef .tc main_v2) :=
        congrArg (fun l => StableHlo.after l (W1 m ρ c) (Proc.devRef .tc main_v2)) (List.take_append_drop 8 _).symm
    _ = StableHlo.after (List.drop 8 hostOps0_1) (StableHlo.after (List.take 8 hostOps0_1) (W1 m ρ c)) (Proc.devRef .tc main_v2) :=
        congrFun (after_append _ _ _) _
    _ = takeRowsAt (StableHlo.after (List.take 8 hostOps0_1) (W1 m ρ c) (Proc.devRef .tc main_arg0))
          (StableHlo.after (List.take 8 hostOps0_1) (W1 m ρ c) (Proc.devRef .tc main_call0_v5)) := select_stretch _
    _ = takeRowsAt (m ((c : Thread nD τ).loc main_arg0)) (srcIdx (m ((c : Thread nD τ).loc main_arg1))) := by
        rw [index_stretch, index_stretch_keeps]

/-! ## At the node kernel's entry -/

theorem W4_main_arg0 (c : Dev nD) : W4 m ρ c (Proc.devRef .tc main_arg0) = m ((c : Thread nD τ).loc main_arg0) := by
  refine (W4_of_ne m ρ c main_arg0 (by decide)).trans ?_
  show StableHlo.after hostOps0_2 (StableHlo.after hostOps0_1 (StableHlo.after hostOps0 (W0 m ρ c))) (Proc.devRef .tc main_arg0) = _
  after_results_simp
theorem W4_main_arg1 (c : Dev nD) : W4 m ρ c (Proc.devRef .tc main_arg1) = m ((c : Thread nD τ).loc main_arg1) := by
  refine (W4_of_ne m ρ c main_arg1 (by decide)).trans ?_
  show StableHlo.after hostOps0_2 (StableHlo.after hostOps0_1 (StableHlo.after hostOps0 (W0 m ρ c))) (Proc.devRef .tc main_arg1) = _
  after_results_simp
theorem W4_main_arg5 (c : Dev nD) : W4 m ρ c (Proc.devRef .tc main_arg5) = m ((c : Thread nD τ).loc main_arg5) := by
  refine (W4_of_ne m ρ c main_arg5 (by decide)).trans ?_
  show StableHlo.after hostOps0_2 (StableHlo.after hostOps0_1 (StableHlo.after hostOps0 (W0 m ρ c))) (Proc.devRef .tc main_arg5) = _
  after_results_simp
theorem W4_main_arg6 (c : Dev nD) : W4 m ρ c (Proc.devRef .tc main_arg6) = m ((c : Thread nD τ).loc main_arg6) := by
  refine (W4_of_ne m ρ c main_arg6 (by decide)).trans ?_
  show StableHlo.after hostOps0_2 (StableHlo.after hostOps0_1 (StableHlo.after hostOps0 (W0 m ρ c))) (Proc.devRef .tc main_arg6) = _
  after_results_simp
theorem W4_main_arg7 (c : Dev nD) : W4 m ρ c (Proc.devRef .tc main_arg7) = m ((c : Thread nD τ).loc main_arg7) := by
  refine (W4_of_ne m ρ c main_arg7 (by decide)).trans ?_
  show StableHlo.after hostOps0_2 (StableHlo.after hostOps0_1 (StableHlo.after hostOps0 (W0 m ρ c))) (Proc.devRef .tc main_arg7) = _
  after_results_simp
theorem W4_main_arg8 (c : Dev nD) : W4 m ρ c (Proc.devRef .tc main_arg8) = m ((c : Thread nD τ).loc main_arg8) := by
  refine (W4_of_ne m ρ c main_arg8 (by decide)).trans ?_
  show StableHlo.after hostOps0_2 (StableHlo.after hostOps0_1 (StableHlo.after hostOps0 (W0 m ρ c))) (Proc.devRef .tc main_arg8) = _
  after_results_simp
theorem W4_main_arg9 (c : Dev nD) : W4 m ρ c (Proc.devRef .tc main_arg9) = m ((c : Thread nD τ).loc main_arg9) := by
  refine (W4_of_ne m ρ c main_arg9 (by decide)).trans ?_
  show StableHlo.after hostOps0_2 (StableHlo.after hostOps0_1 (StableHlo.after hostOps0 (W0 m ρ c))) (Proc.devRef .tc main_arg9) = _
  after_results_simp
theorem W4_main_arg10 (c : Dev nD) : W4 m ρ c (Proc.devRef .tc main_arg10) = m ((c : Thread nD τ).loc main_arg10) := by
  refine (W4_of_ne m ρ c main_arg10 (by decide)).trans ?_
  show StableHlo.after hostOps0_2 (StableHlo.after hostOps0_1 (StableHlo.after hostOps0 (W0 m ρ c))) (Proc.devRef .tc main_arg10) = _
  after_results_simp
theorem W4_main_arg11 (c : Dev nD) : W4 m ρ c (Proc.devRef .tc main_arg11) = m ((c : Thread nD τ).loc main_arg11) := by
  refine (W4_of_ne m ρ c main_arg11 (by decide)).trans ?_
  show StableHlo.after hostOps0_2 (StableHlo.after hostOps0_1 (StableHlo.after hostOps0 (W0 m ρ c))) (Proc.devRef .tc main_arg11) = _
  after_results_simp

theorem W5_main_arg0 (c : Dev nD) : W5 m ρ c (Proc.devRef .tc main_arg0) = m ((c : Thread nD τ).loc main_arg0) := by
  show StableHlo.after hostOps1 (W4 m ρ c) (Proc.devRef .tc main_arg0) = _
  after_results
  exact W4_main_arg0 m ρ c
theorem W5_main_arg5 (c : Dev nD) : W5 m ρ c (Proc.devRef .tc main_arg5) = m ((c : Thread nD τ).loc main_arg5) := by
  show StableHlo.after hostOps1 (W4 m ρ c) (Proc.devRef .tc main_arg5) = _
  after_results
  exact W4_main_arg5 m ρ c
theorem W5_main_arg9 (c : Dev nD) : W5 m ρ c (Proc.devRef .tc main_arg9) = m ((c : Thread nD τ).loc main_arg9) := by
  show StableHlo.after hostOps1 (W4 m ρ c) (Proc.devRef .tc main_arg9) = _
  after_results
  exact W4_main_arg9 m ρ c
/-- At the node kernel's entry the summed-messages buffer holds the edge kernel's output array summed at the destinations. -/
theorem W5_main_v9 (c : Dev nD) :
    W5 m ρ c (Proc.devRef .tc main_v9) = sumAtDst (m ((c : Thread nD τ).loc main_arg1)) (W4 m ρ c (Proc.devRef .tc main_v4)) := by
  show StableHlo.after hostOps1 (W4 m ρ c) (Proc.devRef .tc main_v9) = _
  after_results
  rw [W4_main_arg1]
  rfl
theorem W5_main_v10 (c : Dev nD) :
    W5 m ρ c (Proc.devRef .tc main_v10) = shapeCast S1x1 (m ((c : Thread nD τ).loc main_arg11)) shapeCasts_S1_S1x1 := by
  show StableHlo.after hostOps1 (W4 m ρ c) (Proc.devRef .tc main_v10) = _
  after_results
  rw [W4_main_arg11]
  rfl
theorem W5_main_v11 (c : Dev nD) :
    W5 m ρ c (Proc.devRef .tc main_v11) = shapeCast S1x256 (m ((c : Thread nD τ).loc main_arg6)) shapeCasts_S256_S1x256 := by
  show StableHlo.after hostOps1 (W4 m ρ c) (Proc.devRef .tc main_v11) = _
  after_results
  rw [W4_main_arg6]
  rfl
theorem W5_main_v12 (c : Dev nD) :
    W5 m ρ c (Proc.devRef .tc main_v12) = shapeCast S1x256 (m ((c : Thread nD τ).loc main_arg7)) shapeCasts_S256_S1x256 := by
  show StableHlo.after hostOps1 (W4 m ρ c) (Proc.devRef .tc main_v12) = _
  after_results
  rw [W4_main_arg7]
  rfl
theorem W5_main_v13 (c : Dev nD) :
    W5 m ρ c (Proc.devRef .tc main_v13) = shapeCast S1x256 (m ((c : Thread nD τ).loc main_arg8)) shapeCasts_S256_S1x256 := by
  show StableHlo.after hostOps1 (W4 m ρ c) (Proc.devRef .tc main_v13) = _
  after_results
  rw [W4_main_arg8]
  rfl
theorem W5_main_v14 (c : Dev nD) :
    W5 m ρ c (Proc.devRef .tc main_v14) = shapeCast S1x128 (m ((c : Thread nD τ).loc main_arg10)) shapeCasts_S128_S1x128 := by
  show StableHlo.after hostOps1 (W4 m ρ c) (Proc.devRef .tc main_v14) = _
  after_results
  rw [W4_main_arg10]
  rfl

end Cert.KernelIdeal.HostReads

end
-- ==== Proof.LibReduceAndAll.lean ====
/-
  A reduction by `and` read forwards. The library reads a printed `jnp.all` backwards (a reduction by `and` that came
  out 1 met only 1s: Lib/ReduceAll.lean); a mask that a program computes and then selects on is needed the other way
  round: a reduction by `and`, started from 1, over an array whose entries are all 1 is 1 at every result index,
  whatever the axes reduced.
-/
import Idealize.ShloMosaic.Lib.ReduceAll

namespace Cert.Lib.ReduceAndAll

open Idealize.ShloMosaic

/-- A left fold by `and` from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl =>
    foldl_andi_of_all f l _ (IntOp.andi_eq_one.2 ⟨h, hl a (List.mem_cons_self ..)⟩) (fun n hn => hl n (List.mem_cons_of_mem _ hn))

/-- A `stablehlo.reduce` by `and` whose initial value is 1, over an operand of 1s, is 1 at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_of_all x _ _ hinit (fun n _ => hx n)

end Cert.Lib.ReduceAndAll
-- ==== Proof.InRange.lean ====
/-
  Source indices in range. When every entry v of the second row of edge_index satisfies -100000 ≤ v < 100000 (as signed
  words), the row number it becomes — v itself, or v + 100000 when v is negative — lies in 0 … 99999, so the range test
  the gather makes is true on every edge and the gathered rows are the rows of x at those numbers, with nothing filled in.
-/
import proofs.«405723_j31456340476230_1_alg».proof.Proof.HostReads
import proofs.«405723_j31456340476230_1_alg».proof.Proof.LibReduceAndAll

noncomputable section

namespace Cert.KernelIdeal.InRange

open Cert.KernelIdeal Cert.KernelIdeal.Gen Cert.KernelIdeal.HostReads Idealize.ShloMosaic

theorem two32 : ((2 ^ 32 : Nat) : Int) = 4294967296 := by decide

/-- A word between -100000 and 99999, moved up by 100000 when negative, lies between 0 and 99999. -/
theorem wrap_inRange (v : BitVec 32) (h1 : (4294867296#32 : BitVec 32).sle v = true) (h2 : v.slt 100000#32 = true) :
    IntOp.andi (IntOp.cmpi .sge (Scalar.select (IntOp.cmpi .slt v 0#32) (IntOp.addi v 100000#32) v) 0#32)
      (IntOp.cmpi .sle (Scalar.select (IntOp.cmpi .slt v 0#32) (IntOp.addi v 100000#32) v) 99999#32) = 1#1 := by
  rw [BitVec.sle] at h1; rw [BitVec.slt] at h2
  simp only [decide_eq_true_eq] at h1 h2
  have e1 : (4294867296#32 : BitVec 32).toInt = -100000 := by decide
  have e2 : (100000#32 : BitVec 32).toInt = 100000 := by decide
  have e3 : (0#32 : BitVec 32).toInt = 0 := by decide
  have e4 : (99999#32 : BitVec 32).toInt = 99999 := by decide
  rw [e1] at h1; rw [e2] at h2
  rw [IntOp.andi_eq_one]
  unfold Scalar.select IntOp.cmpi IntOp.addi
  by_cases hs : v.toInt < 0
  · have hslt : v.slt 0#32 = true := by rw [BitVec.slt, e3]; exact decide_eq_true hs
    have hadd : (v + 100000#32).toInt = v.toInt + 100000 := by
      rw [BitVec.toInt_add, e2]
      exact Int.bmod_eq_of_le_mul_two (by rw [two32]; omega) (by rw [two32]; omega)
    simp only [hslt, BitVec.ofBool_true, if_true]
    constructor
    · show BitVec.ofBool ((0#32 : BitVec 32).sle (v + 100000#32)) = 1#1
      rw [BitVec.sle, e3, hadd, decide_eq_true (by omega : (0 : Int) ≤ v.toInt + 100000)]; rfl
    · show BitVec.ofBool ((v + 100000#32).sle 99999#32) = 1#1
      rw [BitVec.sle, e4, hadd, decide_eq_true (by omega : v.toInt + 100000 ≤ (99999 : Int))]; rfl
  · have hslt : v.slt 0#32 = false := by rw [BitVec.slt, e3]; exact decide_eq_false hs
    simp only [hslt, BitVec.ofBool_false]
    constructor
    · show BitVec.ofBool ((0#32 : BitVec 32).sle (if (0#1 : BitVec 1) = 1 then v + 100000#32 else v)) = 1#1
      rw [if_neg (by decide), BitVec.sle, e3, decide_eq_true (by omega : (0 : Int) ≤ v.toInt)]; rfl
    · show BitVec.ofBool ((if (0#1 : BitVec 1) = 1 then v + 100000#32 else v).sle 99999#32) = 1#1
      rw [if_neg (by decide), BitVec.sle, e4, decide_eq_true (by omega : v.toInt ≤ (99999 : Int))]; rfl

/-- The second row of edge_index as a vector. -/
def srcRow (ei : IVec S2x640000 32) : IVec S640000 32 :=
  shapeCast S640000 (extractStridedSlice S1x640000 ![1, 0] ei slices_S2x640000_S1x640000_1_0) shapeCasts_S1x640000_S640000

/-- With every source index in range the gathered rows are the plain gather. -/
theorem takeRows_eq_gather (x : FVec Ideal S100000x128 .f32) (ei : IVec S2x640000 32)
    (hr : ∀ e : S640000.Idx, (4294867296#32 : BitVec 32).sle (srcRow ei e) = true ∧ (srcRow ei e).slt 100000#32 = true) :
    takeRows x ei = Host.gather gather_S100000x128_S640000x1_S640000x128_1_0_n_n_0_1_1128 x (srcIdx ei) := by
  have hmask : inRange (srcIdx ei) = fun _ => 1#1 := by
    funext e
    unfold inRange
    refine Cert.Lib.ReduceAndAll.reduce_andi_of_all _ _ _ _ _ rfl (fun i' => ?_)
    exact wrap_inRange _ (hr _).1 (hr _).2
  unfold takeRows takeRowsAt
  rw [hmask]
  funext i
  show Scalar.select 1#1 _ _ = _
  rfl

end Cert.KernelIdeal.InRange

end
-- ==== Proof.GraphLayer.lean ====
/-
  One layer of message passing on a graph, entry by entry, over the extended reals.

  An edge's message at channel j is the positive part of: the source node's feature x[src, j], plus the edge's attributes
  projected to the channels, (ea · We[:, j]) + be[j]. A node's input row h is (1 + ε) times its own features plus the sum
  of the messages of the edges that point at it. The node's output is a two-layer perceptron of h with a layer
  normalisation in the middle: h1 = h · W1 + b1 (256 channels); μ the mean of h1's 256 entries and v the mean of the
  squares of h1 − μ; a = (h1 − μ) · (v + 1e-5)^(-1/2) · γ + β; the output at channel j is (a⁺ · W2[:, j]) + b2[j].
  Each is written here as a function of one ROW of each array, so that a tile of rows and the whole array are read by
  the same formula.
-/
import Idealize.ShloMosaic.PureOps.Ideal

noncomputable section

namespace Cert.GraphLayer

open Idealize.ShloMosaic

/-- An edge's message at one channel: `gx` the source node's feature there, `ea` the edge's 64 attributes, `w` the
    projection's column for the channel, `b` its bias. -/
def msgAt (gx : EReal) (ea w : Fin 64 → EReal) (b : EReal) : EReal :=
  max (gx + ((∑ k : Fin 64, ea k * w k) + b)) 0

/-- A node's input at one channel: (1 + ε) · x + the summed messages. -/
def hAt (e x mr : EReal) : EReal := (Ideal.ofBits .f32 0x3F800000#32 + e) * x + mr

/-- The first linear layer at hidden channel k: the row `h` against column k of W1, plus the bias. -/
def h1At (h : Fin 128 → EReal) (w1col : Fin 128 → EReal) (b : EReal) : EReal := (∑ i : Fin 128, h i * w1col i) + b

/-- The mean of 256 entries. -/
def mean256 (v : Fin 256 → EReal) : EReal := Ideal.div (∑ k : Fin 256, v k) (Ideal.ofBits .f32 0x43800000#32)

/-- The normalised, scaled hidden row before the shift β: (h1 − μ) · rsqrt(var + 1e-5) · γ. -/
def normAt (h1 : Fin 256 → EReal) (g : Fin 256 → EReal) (k : Fin 256) : EReal :=
  (h1 k - mean256 h1) * Ideal.rsqrt (mean256 (fun k' => (h1 k' - mean256 h1) * (h1 k' - mean256 h1)) + Ideal.ofBits .f32 0x3727C5AC#32) * g k

/-- The output at channel j: the positive part of the shifted hidden row against column j of W2, plus the bias. -/
def outAt (a bt : Fin 256 → EReal) (w2col : Fin 256 → EReal) (b : EReal) : EReal :=
  (∑ k : Fin 256, max (a k + bt k) 0 * w2col k) + b

/-- A node's output at channel j from its own row `x`, its summed-message row `mr`, ε and the perceptron's parameters. -/
def nodeAt (e : EReal) (x mr : Fin 128 → EReal) (w1 : Fin 128 → Fin 256 → EReal) (b1 g bt : Fin 256 → EReal)
    (w2 : Fin 256 → Fin 128 → EReal) (b2 : Fin 128 → EReal) (j : Fin 128) : EReal :=
  outAt (normAt (fun k => h1At (fun i => hAt e (x i) (mr i)) (fun i => w1 i k) (b1 k)) g) bt (fun k => w2 k j) (b2 j)

end Cert.GraphLayer

end
-- ==== Proof.LibPlainDot.lean ====
/-
  A plain product of an m×k array by a k×n array, accumulated into the zero array and read at one entry. Over the
  extended reals it is the sum, over the contracted coordinate, of the products of the two arrays' entries — the same
  sum the host's product of the same two arrays is at that entry.
-/
import Idealize.ShloMosaic.Lib.StackMember
import Idealize.ShloMosaic.PureOps.Ideal.Laws

noncomputable section

namespace Cert.Lib.PlainDot

open Idealize.ShloMosaic Idealize.ShloMosaic.ValueIdx

/-- `A · B` into the zero accumulator, at entry `(a, b)`: `∑ c, A[a, c] * B[c, b]`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  refine Eq.trans ?_ (StackMember.dotGeneral_plain_apply prec A B a b)
  show FloatOps.matmul _ prec A B _ (ix2 a b) = FloatOps.dotGeneral _ prec _ A B (ix2 a b)
  rw [Ideal.matmul_constant_zero_apply, Ideal.dotGeneral_apply]

end Cert.Lib.PlainDot

end
-- ==== Proof.EdgeTile.lean ====
/-
  The edge kernel's tile, entry by entry: from a tile of 8000 edges' attributes, the same edges' gathered source rows,
  the projection and its bias, the stored value at (p, j) is the message of edge p at channel j.
-/
import proofs.«405723_j31456340476230_1_alg».proof.Proof.Gen.KernelIdeal.Skeleton
import proofs.«405723_j31456340476230_1_alg».proof.Proof.GraphLayer
import proofs.«405723_j31456340476230_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgeTile

open Cert.KernelIdeal Cert.KernelIdeal.Gen Idealize.ShloMosaic Idealize.ShloMosaic.ValueIdx Cert.GraphLayer

/-- The value the edge kernel stores at (p, j) of its tile: the message of the edge in row p at channel j. The changes of
    float format are the identity, the cast and the row broadcast read the bias at channel j, and the product into the
    zero accumulator is the sum over the 64 attributes. -/
theorem pay_apply (v0 : Vec Ideal S8000x64 .f32) (v2 : Vec Ideal S64x128 .f32) (v5 : Vec Ideal S1x128 .f32) (v9 : Vec Ideal S8000x128 .f32)
    (p : Fin 8000) (j : Fin 128) :
    k0_pay1 (F := Ideal) v0 v2 v5 v9 (ix2 p j)
      = msgAt (v9 (ix2 p j)) (fun k => v0 (ix2 p k)) (fun k => v2 (ix2 k j)) (v5 (ix2 (0 : Fin 1) j)) := by
  unfold k0_pay1 msgAt
  simp only [maximumf, addf, broadcast]
  rw [shapeCast_self, shapeCast_self, broadcastTo_1b_ab_apply,
    show dot_S8000x64_S64x128_S8000x128_1_0_0_1_n_n = DotDims.plain 8000 64 128 from rfl,
    Cert.Lib.PlainDot.matmul_plain_zero_apply]
  simp only [truncf, Ideal.truncf_def, Ideal.maximumf_def, Ideal.addf_def, Ideal.ofBits_def, Ideal.ofBits_zero_f32]

end Cert.KernelIdeal.EdgeTile

end
-- ==== Proof.EdgeArray.lean ====
/-
  The edge kernel's whole output. Tile t of the grid's 80 covers edges 8000·t … 8000·t + 7999; what it writes back at
  local (p, j) is the message of edge 8000·t + p at channel j, and the tiles cover the array: so after the region the
  array holds, at every (e, j), the message of edge e at channel j, as a function of the arrays the region found.
-/
import proofs.«405723_j31456340476230_1_alg».proof.Proof.Gen.KernelIdeal.Frame
import proofs.«405723_j31456340476230_1_alg».proof.Proof.EdgeTile
import Idealize.ShloMosaic.Lib.Pipeline.Value

set_option maxRecDepth 16384

noncomputable section

namespace Cert.KernelIdeal.EdgeArray

open Cert.KernelIdeal Cert.KernelIdeal.Gen Idealize.ShloMosaic Idealize.ShloMosaic.TcCoe Idealize.ShloMosaic.ValueIdx Cert.GraphLayer
open Idealize.ShloMosaic.Pipeline (Dat)

variable (V : (c : Dev nD) → (b : Ref sig .tc) → Buf (Elt Ideal) ((c : Thread nD τ).loc b))

/-- Every edge's message at every channel, from the attributes, the gathered source rows, the projection and its bias. -/
def msgArr (ea : Vec Ideal S640000x64 .f32) (gx : Vec Ideal S640000x128 .f32) (we : Vec Ideal S64x128 .f32)
    (be : Vec Ideal S1x128 .f32) : Vec Ideal S640000x128 .f32 :=
  fun i => msgAt (gx (ix2 (i 0) (i 1))) (fun k => ea (ix2 (i 0) k)) (fun k => we (ix2 k (i 1))) (be (ix2 (0 : Fin 1) (i 1)))

theorem zero_offsets : (![0, 0] : Fin 2 → Nat) = fun _ => 0 := funext fun a => by fin_cases a <;> rfl

/-- The printed index maps over the grid: the tiled windows sit at block row t, the shared ones at block (0, 0). -/
theorem tile_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What tile t writes back is tile t of the message array. -/
theorem flushed_eq (c : Dev nD) (t : Fin cfg0.N) :
    (dat0 V c).flushed 4 t = ((cfg0.win 4).blk t).view.read (Elt Ideal)
      (msgArr (V c main_arg2) (V c main_v2) (V c main_arg3) (V c main_v3)) := by
  show (cfg0.win 4).cut (grid0.coords t) ((dat0 V c).after 4 t) = _
  rw [after0_4]
  unfold out0_4
  rw [View.canon_unit_zero zero_offsets]
  simp only [View.ld_unit_zero (S := S8000x64) zero_offsets, View.ld_unit_zero (S := S64x128) zero_offsets,
    View.ld_unit_zero (S := S1x128) zero_offsets, View.ld_unit_zero (S := S8000x128) zero_offsets]
  obtain ⟨e00, e01, e10, e11, e20, e21, e30, e31, e40, e41⟩ := tile_rows t
  funext y
  obtain ⟨p, j, rfl⟩ : ∃ (p : Fin 8000) (j : Fin 128), y = ix2 p j := ⟨y 0, y 1, eq_ix2 y⟩
  refine (EdgeTile.pay_apply _ _ _ _ p j).trans ?_
  have ht : t.val < 80 := lt_of_lt_of_eq t.isLt N_0
  have hr : 8000 * t.val + p.val < 640000 := by have := p.isLt; omega
  show msgAt (V c main_v2 (((cfg0.win 1).blk t).view.emb (ix2 p j)))
      (fun k => V c main_arg2 (((cfg0.win 0).blk t).view.emb (ix2 p k)))
      (fun k => V c main_arg3 (((cfg0.win 2).blk t).view.emb (ix2 k j)))
      (V c main_v3 (((cfg0.win 3).blk t).view.emb (ix2 (0 : Fin 1) j)))
    = msgArr (V c main_arg2) (V c main_v2) (V c main_arg3) (V c main_v3) (((cfg0.win 4).blk t).view.emb (ix2 p j))
  have h4 : ((cfg0.win 4).blk t).view.emb (ix2 p j) = ix2 (⟨8000 * t.val + p.val, hr⟩ : Fin 640000) j := by
    funext a; apply Fin.ext
    match a with
    | ⟨0, _⟩ => show win0_4.index t (0 : Fin 2) * 8000 + 1 * p.val = 8000 * t.val + p.val; omega
    | ⟨1, _⟩ => show win0_4.index t (1 : Fin 2) * 128 + 1 * j.val = j.val; omega
  have h1 : ((cfg0.win 1).blk t).view.emb (ix2 p j) = ix2 (⟨8000 * t.val + p.val, hr⟩ : Fin 640000) j := by
    funext a; apply Fin.ext
    match a with
    | ⟨0, _⟩ => show win0_1.index t (0 : Fin 2) * 8000 + 1 * p.val = 8000 * t.val + p.val; omega
    | ⟨1, _⟩ => show win0_1.index t (1 : Fin 2) * 128 + 1 * j.val = j.val; omega
  have h0 : ∀ k : Fin 64, ((cfg0.win 0).blk t).view.emb (ix2 p k) = ix2 (⟨8000 * t.val + p.val, hr⟩ : Fin 640000) k := by
    intro k; funext a; apply Fin.ext
    match a with
    | ⟨0, _⟩ => show win0_0.index t (0 : Fin 2) * 8000 + 1 * p.val = 8000 * t.val + p.val; omega
    | ⟨1, _⟩ => show win0_0.index t (1 : Fin 2) * 64 + 1 * k.val = k.val; omega
  have h2 : ∀ k : Fin 64, ((cfg0.win 2).blk t).view.emb (ix2 k j) = ix2 k j := by
    intro k; funext a; apply Fin.ext
    match a with
    | ⟨0, _⟩ => show win0_2.index t (0 : Fin 2) * 64 + 1 * k.val = k.val; omega
    | ⟨1, _⟩ => show win0_2.index t (1 : Fin 2) * 128 + 1 * j.val = j.val; omega
  have h3 : ((cfg0.win 3).blk t).view.emb (ix2 (0 : Fin 1) j) = ix2 (0 : Fin 1) j := by
    funext a; apply Fin.ext
    match a with
    | ⟨0, _⟩ => show win0_3.index t (0 : Fin 2) * 1 + 1 * 0 = 0; omega
    | ⟨1, _⟩ => show win0_3.index t (1 : Fin 2) * 128 + 1 * j.val = j.val; omega
  rw [h4, h1, h3]
  simp only [h0, h2]
  rfl

/-- An index of the array lies in tile t iff each coordinate lies in the tile's range on its axis. -/
theorem mem_tile (t : Fin cfg0.N) (i : S640000x128.Idx) :
    i ∈ ((cfg0.win 4).blk t).view.set ↔ ∀ a : Fin 2, win0_4.index t a * S8000x128.size a ≤ (i a).val
      ∧ (i a).val < win0_4.index t a * S8000x128.size a + S8000x128.size a := by
  show i ∈ ((View.whole main_v4).slice (win0_4.rect t)).set ↔ _
  rw [View.set_slice_whole, Rect.mem_set_unit]
  exact Iff.rfl

/-- Every entry of the array is written by the tile its edge falls in. -/
theorem covered (i : S640000x128.Idx) :
    ∃ t : Fin cfg0.N, (cfg0.win 4).flush t = true ∧ i ∈ ((cfg0.win 4).blk t).view.set := by
  have hi0 : (i 0).val < 640000 := (i 0).isLt
  have hi1 : (i 1).val < 128 := (i 1).isLt
  have hN : cfg0.N = 80 := N_0
  have hlt : (i 0).val / 8000 < cfg0.N := by rw [hN]; omega
  obtain ⟨-, -, -, -, -, -, -, -, e40, e41⟩ := tile_rows ⟨(i 0).val / 8000, hlt⟩
  refine ⟨⟨(i 0).val / 8000, hlt⟩, flush0_4 _, ?_⟩
  rw [mem_tile]
  intro a
  match a with
  | ⟨0, _⟩ =>
    show win0_4.index ⟨(i 0).val / 8000, hlt⟩ (0 : Fin 2) * 8000 ≤ (i 0).val
      ∧ (i 0).val < win0_4.index ⟨(i 0).val / 8000, hlt⟩ (0 : Fin 2) * 8000 + 8000
    rw [e40]
    show (i 0).val / 8000 * 8000 ≤ (i 0).val ∧ (i 0).val < (i 0).val / 8000 * 8000 + 8000
    omega
  | ⟨1, _⟩ =>
    show win0_4.index ⟨(i 0).val / 8000, hlt⟩ (1 : Fin 2) * 128 ≤ (i 1).val
      ∧ (i 1).val < win0_4.index ⟨(i 0).val / 8000, hlt⟩ (1 : Fin 2) * 128 + 128
    omega

/-- After the region the output array is the message array of the arrays the region found. -/
theorem final (c : Dev nD) :
    (dat0 V c).arrAt 4 cfg0.N = msgArr (V c main_arg2) (V c main_v2) (V c main_arg3) (V c main_v3) :=
  (dat0 V c).arrAt_eq_of_cover 4 _ (fun t _ => flushed_eq V c t) covered

end Cert.KernelIdeal.EdgeArray

end
-- ==== Proof.LibRowOps.lean ====
/-
  Layout operations and a lane sum read at an index given by coordinates: the column forms that sit beside the
  row forms of the library's layout lemmas.

  * a column [a, 1] broadcast along its unit axis to [a, b] reads, at (p, c), the column's entry p;
  * a vector [a] cast to a column [a, 1] reads, at (i, 0), the vector's entry i;
  * a sum over the second axis of an [a, b] array, read at p, is the sum over n of the entries (p, n);
  * a block of extents [1, m, n] loaded from an [k, m, n] array at offset (i, 0, 0) reads, at (0, r, c), the array's
    entry (i, r, c); likewise a [1, n] row of a [k, n] array and one entry of a vector.
-/
import Idealize.ShloMosaic.Lib.ValueLayout
import Idealize.ShloMosaic.Lib.Pipeline.FrameBody
import Idealize.ShloMosaic.PureOps.Ideal.Laws

noncomputable section

namespace Cert.RowOps

open Idealize.ShloMosaic Idealize.ShloMosaic.ValueIdx

variable {α : Type}

/-- A column broadcast along its unit axis: entry (p, c) of the result is entry p of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a column: entry (i, 0) of the column is entry i of the vector. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the second axis of an [a, b] array of extended reals, read at p: the sum over n of entry (p, n). -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ n : Fin b, src (ix2 p n) := by
  refine (Ideal.multiReduction_add_single src 0x00000000#32 h hφ hacc (ix1 p)).trans ?_
  refine Finset.sum_congr rfl fun n _ => congrArg src (funext fun c => Fin.ext ?_)
  show h.liftVal (ix1 p) n.val c = _
  match c with
  | ⟨0, _⟩ => simp [Shape.Reduces.liftVal]
  | ⟨1, _⟩ => simp [Shape.Reduces.liftVal]

/-- A load through a unit-stride rectangle reads, at j, the array at the index k whose coordinates are the
    rectangle's offsets plus j's. -/
theorem ld_unit_apply {S : Shape} {Val : EltTy → Type} {e : EltTy} (X : S.Idx → Val e)
    (off size : Fin S.rank → Nat) (inb : ∀ a, off a + size a ≤ S.size a)
    (j : (Rect.unit off size inb).shape.Idx) (k : S.Idx) (hk : ∀ a, (k a).val = off a + (j a).val) :
    View.ld X (Rect.unit off size inb) j = X k := by
  show X ((Rect.unit off size inb).idx j) = X k
  refine congrArg X (funext fun a => Fin.ext ?_)
  rw [hk a]
  show off a + 1 * (j a).val = off a + (j a).val
  rw [Nat.one_mul]

end Cert.RowOps

end
-- ==== Proof.NodeTile.lean ====
/-
  The node kernel's tile, entry by entry.
-/
import proofs.«405723_j31456340476230_1_alg».proof.Proof.Gen.KernelIdeal.Skeleton
import proofs.«405723_j31456340476230_1_alg».proof.Proof.GraphLayer
import proofs.«405723_j31456340476230_1_alg».proof.Proof.LibPlainDot
import proofs.«405723_j31456340476230_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.NodeTile

open Cert.KernelIdeal Cert.KernelIdeal.Gen Idealize.ShloMosaic Idealize.ShloMosaic.ValueIdx Cert.GraphLayer

/-- A one-entry array broadcast over an [a, b] array reads that entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- Entry-by-entry reading of the tile's pointwise operations, layout operations and products. -/
macro "node_simp" "[" hs:Lean.Parser.Tactic.simpLemma,* "]" : tactic =>
  `(tactic| simp only [mulf, addf, subf, divf, rsqrt, maximumf, broadcast, truncf, shapeCast_self, broadcastTo_1b_ab_apply,
    Cert.RowOps.broadcastTo_a1_ab_apply, broadcastTo_11_ab_apply, Cert.RowOps.shapeCast_a_a1_apply,
    Cert.Lib.PlainDot.matmul_plain_zero_apply,
    Ideal.truncf_def, Ideal.mulf_def, Ideal.addf_def, Ideal.subf_def, Ideal.divf_def, Ideal.rsqrt_def, Ideal.maximumf_def,
    Ideal.ofBits_def, $hs,*])

/-- The sum along a row, with its two side proofs typed as the printed body spells them. -/
theorem rowSum_apply (src : FVec Ideal S2000x256 .f32)
    (h : S2000x256.Reduces [1] S2000) (hφ : FTy.f32 = FTy.f32 ∨ FTy.f32 = FTy.bf16)
    (hacc : (0x00000000#32 : BitVec 32) = 0x00000000#32) (p : Fin 2000) :
    multiReduction .add [1] S2000 src 0x00000000#32 h hφ hacc (ix1 p) = ∑ n : Fin 256, src (ix2 p n) :=
  Cert.RowOps.laneSum_apply src h hφ hacc p

/-- The hidden row before the shift β: at (p, k) the normalised, scaled first-layer output of the node in row p. The two
    row sums run over the 256 hidden channels, and the second (the variance) has the first (the mean) inside its summand,
    which is why the sums are opened one after the other. -/
theorem hidden_apply (v0 : Vec Ideal S1x1 .f32) (v4 v7 : Vec Ideal S2000x128 .f32) (v11 : Vec Ideal S128x256 .f32)
    (v14 v36 : Vec Ideal S1x256 .f32) (p : Fin 2000) (k : Fin 256) :
    k1_pay2 (F := Ideal) v0 v4 v7 v11 v14 v36 (ix2 p k)
      = normAt (fun k' => h1At (fun i => hAt (v0 (ix2 (0 : Fin 1) (0 : Fin 1))) (v4 (ix2 p i)) (v7 (ix2 p i)))
            (fun i => v11 (ix2 i k')) (v14 (ix2 (0 : Fin 1) k'))) (fun k' => v36 (ix2 (0 : Fin 1) k')) k := by
  unfold k1_pay2 normAt mean256 h1At hAt
  have hd : dot_S2000x128_S128x256_S2000x256_1_0_0_1_n_n = DotDims.plain 2000 128 256 := rfl
  node_simp [hd]
  repeat (rw [rowSum_apply]; try node_simp [hd])

set_option backward.isDefEq.respectTransparency.types false in
/-- The second layer at (p, j): the positive part of the shifted hidden row against column j of W2, plus the bias. -/
theorem out_apply (a : FVec Ideal S2000x256 .f32) (v40 : Vec Ideal S1x256 .f32) (v47 : Vec Ideal S256x128 .f32)
    (v50 : Vec Ideal S1x128 .f32) (p : Fin 2000) (j : Fin 128) :
    k1_pay1 (F := Ideal) a v40 v47 v50 (ix2 p j)
      = outAt (fun k => a (ix2 p k)) (fun k => v40 (ix2 (0 : Fin 1) k)) (fun k => v47 (ix2 k j)) (v50 (ix2 (0 : Fin 1) j)) := by
  unfold k1_pay1 outAt
  have hd : dot_S2000x256_S256x128_S2000x128_1_0_0_1_n_n = DotDims.plain 2000 256 128 := rfl
  node_simp [hd, Ideal.ofBits_zero_f32]

/-- The value the node kernel stores at (p, j) of its tile: the output of the node in row p at channel j. -/
theorem tile_apply (v0 : Vec Ideal S1x1 .f32) (v4 v7 : Vec Ideal S2000x128 .f32) (v11 : Vec Ideal S128x256 .f32)
    (v14 v36 v40 : Vec Ideal S1x256 .f32) (v47 : Vec Ideal S256x128 .f32) (v50 : Vec Ideal S1x128 .f32)
    (p : Fin 2000) (j : Fin 128) :
    k1_pay1 (F := Ideal) (k1_pay2 (F := Ideal) v0 v4 v7 v11 v14 v36) v40 v47 v50 (ix2 p j)
      = nodeAt (v0 (ix2 (0 : Fin 1) (0 : Fin 1))) (fun i => v4 (ix2 p i)) (fun i => v7 (ix2 p i)) (fun i k => v11 (ix2 i k))
          (fun k => v14 (ix2 (0 : Fin 1) k)) (fun k => v36 (ix2 (0 : Fin 1) k)) (fun k => v40 (ix2 (0 : Fin 1) k))
          (fun k j' => v47 (ix2 k j')) (fun j' => v50 (ix2 (0 : Fin 1) j')) j := by
  rw [out_apply]
  unfold nodeAt
  simp only [hidden_apply]

end Cert.KernelIdeal.NodeTile

end
-- ==== Proof.NodeArray.lean ====
/-
  The node kernel's whole output. Tile t of the grid's 50 covers nodes 2000·t … 2000·t + 1999; what it writes back at
  local (p, j) is the output of node 2000·t + p at channel j, a function of that node's own row and summed-message row
  and of the perceptron's parameters, which every tile reads whole. The tiles cover the array: after the region it holds,
  at every (n, j), node n's output at channel j, as a function of the arrays the region found.
-/
import proofs.«405723_j31456340476230_1_alg».proof.Proof.Gen.KernelIdeal.Frame
import proofs.«405723_j31456340476230_1_alg».proof.Proof.NodeTile
import Idealize.ShloMosaic.Lib.Pipeline.Value

set_option maxRecDepth 16384

noncomputable section

namespace Cert.KernelIdeal.NodeArray

open Cert.KernelIdeal Cert.KernelIdeal.Gen Idealize.ShloMosaic Idealize.ShloMosaic.TcCoe Idealize.ShloMosaic.ValueIdx Cert.GraphLayer
open Idealize.ShloMosaic.Pipeline (Dat)

variable (V : (c : Dev nD) → (b : Ref sig .tc) → Buf (Elt Ideal) ((c : Thread nD τ).loc b))

/-- Every node's output at every channel, from the node features, the summed messages, ε and the perceptron's
    parameters (the vectors as one-row arrays). -/
def nodeArr (x mr : Vec Ideal S100000x128 .f32) (e : Vec Ideal S1x1 .f32) (w1 : Vec Ideal S128x256 .f32)
    (b1 g bt : Vec Ideal S1x256 .f32) (w2 : Vec Ideal S256x128 .f32) (b2 : Vec Ideal S1x128 .f32) :
    Vec Ideal S100000x128 .f32 :=
  fun i => nodeAt (e (ix2 (0 : Fin 1) (0 : Fin 1))) (fun a => x (ix2 (i 0) a)) (fun a => mr (ix2 (i 0) a))
    (fun a k => w1 (ix2 a k)) (fun k => b1 (ix2 (0 : Fin 1) k)) (fun k => g (ix2 (0 : Fin 1) k))
    (fun k => bt (ix2 (0 : Fin 1) k)) (fun k j => w2 (ix2 k j)) (fun j => b2 (ix2 (0 : Fin 1) j)) (i 1)

theorem zero_offsets : (![0, 0] : Fin 2 → Nat) = fun _ => 0 := funext fun a => by fin_cases a <;> rfl

/-- The printed index maps over the grid: the tiled windows sit at block row t, the shared ones at block (0, 0). -/
theorem tile_rows : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

set_option maxHeartbeats 4000000 in
/-- What tile t writes back is tile t of the node array. -/
theorem flushed_eq (c : Dev nD) (t : Fin cfg1.N) :
    (dat1 V c).flushed 9 t = ((cfg1.win 9).blk t).view.read (Elt Ideal)
      (nodeArr (V c main_arg0) (V c main_v9) (V c main_v10) (V c main_arg5) (V c main_v11) (V c main_v12) (V c main_v13)
        (V c main_arg9) (V c main_v14)) := by
  show (cfg1.win 9).cut (grid1.coords t) ((dat1 V c).after 9 t) = _
  rw [after1_9]
  unfold out1_9
  rw [View.canon_unit_zero zero_offsets]
  simp only [View.ld_unit_zero (S := S2000x128) zero_offsets, View.ld_unit_zero (S := S1x1) zero_offsets,
    View.ld_unit_zero (S := S128x256) zero_offsets, View.ld_unit_zero (S := S1x256) zero_offsets,
    View.ld_unit_zero (S := S256x128) zero_offsets, View.ld_unit_zero (S := S1x128) zero_offsets]
  obtain ⟨e00, e01, e10, e11, e20, e21, e30, e31, e40, e41, e50, e51, e60, e61, e70, e71, e80, e81, e90, e91⟩ := tile_rows t
  funext y
  obtain ⟨p, j, rfl⟩ : ∃ (p : Fin 2000) (j : Fin 128), y = ix2 p j := ⟨y 0, y 1, eq_ix2 y⟩
  refine (NodeTile.tile_apply _ _ _ _ _ _ _ _ _ p j).trans ?_
  have ht : t.val < 50 := lt_of_lt_of_eq t.isLt N_1
  have hr : 2000 * t.val + p.val < 100000 := by have := p.isLt; omega
  show nodeAt (V c main_v10 (((cfg1.win 2).blk t).view.emb (ix2 (0 : Fin 1) (0 : Fin 1))))
      (fun i => V c main_arg0 (((cfg1.win 0).blk t).view.emb (ix2 p i)))
      (fun i => V c main_v9 (((cfg1.win 1).blk t).view.emb (ix2 p i)))
      (fun i k => V c main_arg5 (((cfg1.win 3).blk t).view.emb (ix2 i k)))
      (fun k => V c main_v11 (((cfg1.win 4).blk t).view.emb (ix2 (0 : Fin 1) k)))
      (fun k => V c main_v12 (((cfg1.win 5).blk t).view.emb (ix2 (0 : Fin 1) k)))
      (fun k => V c main_v13 (((cfg1.win 6).blk t).view.emb (ix2 (0 : Fin 1) k)))
      (fun k j' => V c main_arg9 (((cfg1.win 7).blk t).view.emb (ix2 k j')))
      (fun j' => V c main_v14 (((cfg1.win 8).blk t).view.emb (ix2 (0 : Fin 1) j'))) j
    = nodeArr (V c main_arg0) (V c main_v9) (V c main_v10) (V c main_arg5) (V c main_v11) (V c main_v12) (V c main_v13)
        (V c main_arg9) (V c main_v14) (((cfg1.win 9).blk t).view.emb (ix2 p j))
  have h9 : ((cfg1.win 9).blk t).view.emb (ix2 p j) = ix2 (⟨2000 * t.val + p.val, hr⟩ : Fin 100000) j := by
    funext a; apply Fin.ext
    match a with
    | ⟨0, _⟩ => show win1_9.index t (0 : Fin 2) * 2000 + 1 * p.val = 2000 * t.val + p.val; omega
    | ⟨1, _⟩ => show win1_9.index t (1 : Fin 2) * 128 + 1 * j.val = j.val; omega
  have h0 : ∀ i : Fin 128, ((cfg1.win 0).blk t).view.emb (ix2 p i) = ix2 (⟨2000 * t.val + p.val, hr⟩ : Fin 100000) i := by
    intro i; funext a; apply Fin.ext
    match a with
    | ⟨0, _⟩ => show win1_0.index t (0 : Fin 2) * 2000 + 1 * p.val = 2000 * t.val + p.val; omega
    | ⟨1, _⟩ => show win1_0.index t (1 : Fin 2) * 128 + 1 * i.val = i.val; omega
  have h1 : ∀ i : Fin 128, ((cfg1.win 1).blk t).view.emb (ix2 p i) = ix2 (⟨2000 * t.val + p.val, hr⟩ : Fin 100000) i := by
    intro i; funext a; apply Fin.ext
    match a with
    | ⟨0, _⟩ => show win1_1.index t (0 : Fin 2) * 2000 + 1 * p.val = 2000 * t.val + p.val; omega
    | ⟨1, _⟩ => show win1_1.index t (1 : Fin 2) * 128 + 1 * i.val = i.val; omega
  have h2 : ((cfg1.win 2).blk t).view.emb (ix2 (0 : Fin 1) (0 : Fin 1)) = ix2 (0 : Fin 1) (0 : Fin 1) := by
    funext a; apply Fin.ext
    match a with
    | ⟨0, _⟩ => show win1_2.index t (0 : Fin 2) * 1 + 1 * 0 = 0; omega
    | ⟨1, _⟩ => show win1_2.index t (1 : Fin 2) * 1 + 1 * 0 = 0; omega
  have h3 : ∀ (i : Fin 128) (k : Fin 256), ((cfg1.win 3).blk t).view.emb (ix2 i k) = ix2 i k := by
    intro i k; funext a; apply Fin.ext
    match a with
    | ⟨0, _⟩ => show win1_3.index t (0 : Fin 2) * 128 + 1 * i.val = i.val; omega
    | ⟨1, _⟩ => show win1_3.index t (1 : Fin 2) * 256 + 1 * k.val = k.val; omega
  have h4 : ∀ k : Fin 256, ((cfg1.win 4).blk t).view.emb (ix2 (0 : Fin 1) k) = ix2 (0 : Fin 1) k := by
    intro k; funext a; apply Fin.ext
    match a with
    | ⟨0, _⟩ => show win1_4.index t (0 : Fin 2) * 1 + 1 * 0 = 0; omega
    | ⟨1, _⟩ => show win1_4.index t (1 : Fin 2) * 256 + 1 * k.val = k.val; omega
  have h5 : ∀ k : Fin 256, ((cfg1.win 5).blk t).view.emb (ix2 (0 : Fin 1) k) = ix2 (0 : Fin 1) k := by
    intro k; funext a; apply Fin.ext
    match a with
    | ⟨0, _⟩ => show win1_5.index t (0 : Fin 2) * 1 + 1 * 0 = 0; omega
    | ⟨1, _⟩ => show win1_5.index t (1 : Fin 2) * 256 + 1 * k.val = k.val; omega
  have h6 : ∀ k : Fin 256, ((cfg1.win 6).blk t).view.emb (ix2 (0 : Fin 1) k) = ix2 (0 : Fin 1) k := by
    intro k; funext a; apply Fin.ext
    match a with
    | ⟨0, _⟩ => show win1_6.index t (0 : Fin 2) * 1 + 1 * 0 = 0; omega
    | ⟨1, _⟩ => show win1_6.index t (1 : Fin 2) * 256 + 1 * k.val = k.val; omega
  have h7 : ∀ (k : Fin 256) (j' : Fin 128), ((cfg1.win 7).blk t).view.emb (ix2 k j') = ix2 k j' := by
    intro k j'; funext a; apply Fin.ext
    match a with
    | ⟨0, _⟩ => show win1_7.index t (0 : Fin 2) * 256 + 1 * k.val = k.val; omega
    | ⟨1, _⟩ => show win1_7.index t (1 : Fin 2) * 128 + 1 * j'.val = j'.val; omega
  have h8 : ∀ j' : Fin 128, ((cfg1.win 8).blk t).view.emb (ix2 (0 : Fin 1) j') = ix2 (0 : Fin 1) j' := by
    intro j'; funext a; apply Fin.ext
    match a with
    | ⟨0, _⟩ => show win1_8.index t (0 : Fin 2) * 1 + 1 * 0 = 0; omega
    | ⟨1, _⟩ => show win1_8.index t (1 : Fin 2) * 128 + 1 * j'.val = j'.val; omega
  rw [h9, h2]
  simp only [h0, h1, h3, h4, h5, h6, h7, h8]
  rfl

/-- An index of the array lies in tile t iff each coordinate lies in the tile's range on its axis. -/
theorem mem_tile (t : Fin cfg1.N) (i : S100000x128.Idx) :
    i ∈ ((cfg1.win 9).blk t).view.set ↔ ∀ a : Fin 2, win1_9.index t a * S2000x128.size a ≤ (i a).val
      ∧ (i a).val < win1_9.index t a * S2000x128.size a + S2000x128.size a := by
  show i ∈ ((View.whole main_v15).slice (win1_9.rect t)).set ↔ _
  rw [View.set_slice_whole, Rect.mem_set_unit]
  exact Iff.rfl

/-- Every entry of the array is written by the tile its node falls in. -/
theorem covered (i : S100000x128.Idx) :
    ∃ t : Fin cfg1.N, (cfg1.win 9).flush t = true ∧ i ∈ ((cfg1.win 9).blk t).view.set := by
  have hi0 : (i 0).val < 100000 := (i 0).isLt
  have hi1 : (i 1).val < 128 := (i 1).isLt
  have hN : cfg1.N = 50 := N_1
  have hlt : (i 0).val / 2000 < cfg1.N := by rw [hN]; omega
  obtain ⟨-, -, -, -, -, -, -, -, -, -, -, -, -, -, -, -, -, -, e90, e91⟩ := tile_rows ⟨(i 0).val / 2000, hlt⟩
  refine ⟨⟨(i 0).val / 2000, hlt⟩, flush1_9 _, ?_⟩
  rw [mem_tile]
  intro a
  match a with
  | ⟨0, _⟩ =>
    show win1_9.index ⟨(i 0).val / 2000, hlt⟩ (0 : Fin 2) * 2000 ≤ (i 0).val
      ∧ (i 0).val < win1_9.index ⟨(i 0).val / 2000, hlt⟩ (0 : Fin 2) * 2000 + 2000
    rw [e90]
    show (i 0).val / 2000 * 2000 ≤ (i 0).val ∧ (i 0).val < (i 0).val / 2000 * 2000 + 2000
    omega
  | ⟨1, _⟩ =>
    show win1_9.index ⟨(i 0).val / 2000, hlt⟩ (1 : Fin 2) * 128 ≤ (i 1).val
      ∧ (i 1).val < win1_9.index ⟨(i 0).val / 2000, hlt⟩ (1 : Fin 2) * 128 + 128
    omega

/-- After the region the output array is the node array of the arrays the region found. -/
theorem final (c : Dev nD) :
    (dat1 V c).arrAt 9 cfg1.N = nodeArr (V c main_arg0) (V c main_v9) (V c main_v10) (V c main_arg5) (V c main_v11)
      (V c main_v12) (V c main_v13) (V c main_arg9) (V c main_v14) :=
  (dat1 V c).arrAt_eq_of_cover 9 _ (fun t _ => flushed_eq V c t) covered

end Cert.KernelIdeal.NodeArray

end
-- ==== Proof.ResultValue.lean ====
/-
  The kernel program's result as a function of its arguments. The last region leaves the node kernel's output array;
  that array is the node function of x, of the messages summed at the destination rows, and of ε and the perceptron's
  parameters; the messages are the edge kernel's output array, the message function of the edge attributes, the gathered
  source rows, the projection and its bias; and with the source indices in range the gathered rows are the plain gather.
-/
import proofs.«405723_j31456340476230_1_alg».proof.Proof.HostReads
import proofs.«405723_j31456340476230_1_alg».proof.Proof.InRange
import proofs.«405723_j31456340476230_1_alg».proof.Proof.EdgeArray
import proofs.«405723_j31456340476230_1_alg».proof.Proof.NodeArray

set_option maxRecDepth 16384

noncomputable section

namespace Cert.KernelIdeal.ResultValue

open Cert.KernelIdeal Cert.KernelIdeal.Gen Cert.KernelIdeal.HostReads Idealize.ShloMosaic Idealize.ShloMosaic.TcCoe

variable (m : (ℓ : Loc nD τ sig) → Buf (Elt Ideal) ℓ) (ρ : Dev nD → PrngReg)

/-- The edge kernel's output array at its region's exit. -/
theorem messages (c : Dev nD)
    (hr : ∀ e : S640000.Idx, (4294867296#32 : BitVec 32).sle (InRange.srcRow (m ((c : Thread nD τ).loc main_arg1)) e) = true
      ∧ (InRange.srcRow (m ((c : Thread nD τ).loc main_arg1)) e).slt 100000#32 = true) :
    W4 m ρ c (Proc.devRef .tc main_v4)
      = EdgeArray.msgArr (m ((c : Thread nD τ).loc main_arg2))
          (Host.gather gather_S100000x128_S640000x1_S640000x128_1_0_n_n_0_1_1128 (m ((c : Thread nD τ).loc main_arg0))
            (srcIdx (m ((c : Thread nD τ).loc main_arg1))))
          (m ((c : Thread nD τ).loc main_arg3)) (shapeCast S1x128 (m ((c : Thread nD τ).loc main_arg4)) shapeCasts_S128_S1x128) := by
  refine (W4_arr m ρ c 4).trans ?_
  rw [EdgeArray.final (V3 m ρ) c]
  show EdgeArray.msgArr (W3 m ρ c (Proc.devRef .tc main_arg2)) (W3 m ρ c (Proc.devRef .tc main_v2))
    (W3 m ρ c (Proc.devRef .tc main_arg3)) (W3 m ρ c (Proc.devRef .tc main_v3)) = _
  rw [W3_main_arg2, W3_main_v2, W3_main_arg3, W3_main_v3, InRange.takeRows_eq_gather _ _ hr]

/-- The result buffer after the run. -/
theorem result (c : Dev nD)
    (hr : ∀ e : S640000.Idx, (4294867296#32 : BitVec 32).sle (InRange.srcRow (m ((c : Thread nD τ).loc main_arg1)) e) = true
      ∧ (InRange.srcRow (m ((c : Thread nD τ).loc main_arg1)) e).slt 100000#32 = true) :
    W6 m ρ c (Proc.devRef .tc main_v15)
      = NodeArray.nodeArr (m ((c : Thread nD τ).loc main_arg0))
          (sumAtDst (m ((c : Thread nD τ).loc main_arg1))
            (EdgeArray.msgArr (m ((c : Thread nD τ).loc main_arg2))
              (Host.gather gather_S100000x128_S640000x1_S640000x128_1_0_n_n_0_1_1128 (m ((c : Thread nD τ).loc main_arg0))
                (srcIdx (m ((c : Thread nD τ).loc main_arg1))))
              (m ((c : Thread nD τ).loc main_arg3)) (shapeCast S1x128 (m ((c : Thread nD τ).loc main_arg4)) shapeCasts_S128_S1x128)))
          (shapeCast S1x1 (m ((c : Thread nD τ).loc main_arg11)) shapeCasts_S1_S1x1)
          (m ((c : Thread nD τ).loc main_arg5))
          (shapeCast S1x256 (m ((c : Thread nD τ).loc main_arg6)) shapeCasts_S256_S1x256)
          (shapeCast S1x256 (m ((c : Thread nD τ).loc main_arg7)) shapeCasts_S256_S1x256)
          (shapeCast S1x256 (m ((c : Thread nD τ).loc main_arg8)) shapeCasts_S256_S1x256)
          (m ((c : Thread nD τ).loc main_arg9))
          (shapeCast S1x128 (m ((c : Thread nD τ).loc main_arg10)) shapeCasts_S128_S1x128) := by
  refine (W6_arr m ρ c 9).trans ?_
  rw [NodeArray.final (V5 m ρ) c]
  show NodeArray.nodeArr (W5 m ρ c (Proc.devRef .tc main_arg0)) (W5 m ρ c (Proc.devRef .tc main_v9))
    (W5 m ρ c (Proc.devRef .tc main_v10)) (W5 m ρ c (Proc.devRef .tc main_arg5)) (W5 m ρ c (Proc.devRef .tc main_v11))
    (W5 m ρ c (Proc.devRef .tc main_v12)) (W5 m ρ c (Proc.devRef .tc main_v13)) (W5 m ρ c (Proc.devRef .tc main_arg9))
    (W5 m ρ c (Proc.devRef .tc main_v14)) = _
  rw [W5_main_arg0, W5_main_v9, W5_main_v10, W5_main_arg5, W5_main_v11, W5_main_v12, W5_main_v13, W5_main_arg9, W5_main_v14,
    messages m ρ c hr]

end Cert.KernelIdeal.ResultValue

end
-- ==== Proof.RefMessages.lean ====
/-
  The reference's message array, read entry by entry: the same function of the attributes, the gathered source rows,
  the projection and its bias as the edge kernel's output.
-/
import proofs.«405723_j31456340476230_1_alg».proof.Proof.Gen.ReferenceIdeal.Read
import proofs.«405723_j31456340476230_1_alg».proof.Proof.EdgeArray
import Idealize.ShloMosaic.Lib.ValueLayout

noncomputable section

namespace Cert.ReferenceIdeal.Stages

open Cert.ReferenceIdeal Cert.ReferenceIdeal.Gen Cert.ReferenceIdeal.Read Idealize.ShloMosaic Idealize.ShloMosaic.ValueIdx Cert.GraphLayer

/-- The reference's message array is the message function of the edge attributes, of its own gathered source rows, of the
    projection and of the bias written as a one-row array: each stage read at an index, the product as the sum over the 64
    attributes. -/
theorem msg_eq (x0 : (⟨S100000x128, .f32⟩ : BufTy).Contents (Elt Ideal)) (x1 : (⟨S2x640000, .i32⟩ : BufTy).Contents (Elt Ideal))
    (x2 : (⟨S640000x64, .f32⟩ : BufTy).Contents (Elt Ideal)) (x3 : (⟨S64x128, .f32⟩ : BufTy).Contents (Elt Ideal))
    (x4 : (⟨S128, .f32⟩ : BufTy).Contents (Elt Ideal)) (h : S128.ShapeCasts S1x128) :
    val_main_v14 (F := Ideal) x0 x1 x2 x3 x4
      = Cert.KernelIdeal.EdgeArray.msgArr x2 (val_main_v12 (F := Ideal) x0 x1) x3 (shapeCast S1x128 x4 h) := by
  funext i
  obtain ⟨e, j, rfl⟩ : ∃ (e : Fin 640000) (j : Fin 128), i = ix2 e j := ⟨i 0, i 1, eq_ix2 i⟩
  rw [val_main_v14_apply, val_main_v13_apply, val_main_v3_apply, val_main_v0_apply, val_main_v2_apply, val_main_v1_apply,
    val_main_call0_v0_apply, val_main_call0_cst_apply]
  have e1 : idx_main_v1 (idx_main_v2 (ix2 e j)) = ix1 j := funext fun a => Fin.ext (by match a with | ⟨0, _⟩ => rfl)
  have el : ∀ k : Fin 64, lidx_main_v0 (ix2 e j) k = ix2 e k := fun k => funext fun a => Fin.ext (by
    match a with | ⟨0, _⟩ => rfl | ⟨1, _⟩ => rfl)
  have er : ∀ k : Fin 64, ridx_main_v0 (ix2 e j) k = ix2 k j := fun k => funext fun a => Fin.ext (by
    match a with | ⟨0, _⟩ => rfl | ⟨1, _⟩ => rfl)
  show _ = msgAt (val_main_v12 (F := Ideal) x0 x1 (ix2 e j)) (fun k => x2 (ix2 e k)) (fun k => x3 (ix2 k j))
    (shapeCast S1x128 x4 h (ix2 (0 : Fin 1) j))
  unfold msgAt
  simp only [e1, el, er, shapeCast_a_1a_apply, Ideal.maximumf_def, Ideal.addf_def, Ideal.ofBits_def, Ideal.ofBits_zero_f32]

end Cert.ReferenceIdeal.Stages

end
-- ==== Proof.RefNodes.lean ====
/-
  The reference's output array, read entry by entry: the same function of the node features, the summed messages, ε and
  the perceptron's parameters as the node kernel's output.
-/
import proofs.«405723_j31456340476230_1_alg».proof.Proof.Gen.ReferenceIdeal.Read
import proofs.«405723_j31456340476230_1_alg».proof.Proof.NodeArray
import Idealize.ShloMosaic.Lib.ValueLayout

noncomputable section

namespace Cert.ReferenceIdeal.Stages

open Cert.ReferenceIdeal Cert.ReferenceIdeal.Gen Cert.ReferenceIdeal.Read Idealize.ShloMosaic Idealize.ShloMosaic.ValueIdx Cert.GraphLayer

set_option maxHeartbeats 2000000 in
/-- The reference's result is the node function of x, of its own summed messages, and of ε and the perceptron's vectors
    written as one-row arrays: every stage read at an index, each index map composed down to plain coordinates, and the
    host's sums, which start from the zero word, being the plain sums (0 + s = s). -/
theorem node_eq (x0 : (⟨S100000x128, .f32⟩ : BufTy).Contents (Elt Ideal)) (x1 : (⟨S2x640000, .i32⟩ : BufTy).Contents (Elt Ideal))
    (x2 : (⟨S640000x64, .f32⟩ : BufTy).Contents (Elt Ideal)) (x3 : (⟨S64x128, .f32⟩ : BufTy).Contents (Elt Ideal))
    (x4 : (⟨S128, .f32⟩ : BufTy).Contents (Elt Ideal)) (x5 : (⟨S128x256, .f32⟩ : BufTy).Contents (Elt Ideal))
    (x6 x7 x8 : (⟨S256, .f32⟩ : BufTy).Contents (Elt Ideal)) (x9 : (⟨S256x128, .f32⟩ : BufTy).Contents (Elt Ideal))
    (x10 : (⟨S128, .f32⟩ : BufTy).Contents (Elt Ideal)) (x11 : (⟨S1, .f32⟩ : BufTy).Contents (Elt Ideal))
    (h1 : S1.ShapeCasts S1x1) (h256 : S256.ShapeCasts S1x256) (h128 : S128.ShapeCasts S1x128) :
    val_main_v58 (F := Ideal) x0 x1 x2 x3 x4 x5 x6 x7 x8 x9 x10 x11
      = Cert.KernelIdeal.NodeArray.nodeArr x0 (val_main_v19 (F := Ideal) x0 x1 x2 x3 x4) (shapeCast S1x1 x11 h1) x5
          (shapeCast S1x256 x6 h256) (shapeCast S1x256 x7 h256) (shapeCast S1x256 x8 h256) x9 (shapeCast S1x128 x10 h128) := by
  funext i
  obtain ⟨r, j, rfl⟩ : ∃ (r : Fin 100000) (j : Fin 128), i = ix2 r j := ⟨i 0, i 1, eq_ix2 i⟩
  simp only [val_main_v58_apply, val_main_v57_apply, val_main_v56_apply, val_main_v55_apply, val_main_v54_apply,
    val_main_call1_v0_apply, val_main_call1_cst_apply, val_main_v53_apply, val_main_v52_apply, val_main_v51_apply,
    val_main_v50_apply, val_main_v49_apply, val_main_v48_apply, val_main_v47_apply, val_main_v46_apply, val_main_v45_apply,
    val_main_v44_apply, val_main_v43_apply, val_main_cst_6_apply, val_main_v42_apply, val_main_v41_apply, val_main_v40_apply,
    val_main_v39_apply, val_main_cst_5_apply, val_main_v38_apply, val_main_v37_apply, val_main_cst_4_apply, val_main_v36_apply,
    val_main_v35_apply, val_main_v34_apply, val_main_v33_apply, val_main_v32_apply, val_main_cst_3_apply, val_main_v31_apply,
    val_main_v30_apply, val_main_cst_2_apply, val_main_v29_apply, val_main_v28_apply, val_main_v27_apply, val_main_v26_apply,
    val_main_v25_apply, val_main_v24_apply, val_main_v23_apply, val_main_v22_apply, val_main_v21_apply, val_main_v20_apply,
    val_main_cst_1_apply]
  have L55 : ∀ (r' : Fin 100000) (j' : Fin 128) (k : Fin 256), lidx_main_v55 (ix2 r' j') k = ix2 r' k := fun r' j' k => funext fun a => Fin.ext (by
    match a with | ⟨0, _⟩ => rfl | ⟨1, _⟩ => rfl)
  have R55 : ∀ (r' : Fin 100000) (j' : Fin 128) (k : Fin 256), ridx_main_v55 (ix2 r' j') k = ix2 k j' := fun r' j' k => funext fun a => Fin.ext (by
    match a with | ⟨0, _⟩ => rfl | ⟨1, _⟩ => rfl)
  have I57 : ∀ (r' : Fin 100000) (j' : Fin 128), idx_main_v56 (idx_main_v57 (ix2 r' j')) = ix1 j' := fun r' j' => funext fun a => Fin.ext (by
    match a with | ⟨0, _⟩ => rfl)
  have I52 : ∀ (r' : Fin 100000) (k : Fin 256), idx_main_v51 (idx_main_v52 (ix2 r' k)) = ix1 k := fun r' k => funext fun a => Fin.ext (by
    match a with | ⟨0, _⟩ => rfl)
  have I49 : ∀ (r' : Fin 100000) (k : Fin 256), idx_main_v48 (idx_main_v49 (ix2 r' k)) = ix1 k := fun r' k => funext fun a => Fin.ext (by
    match a with | ⟨0, _⟩ => rfl)
  have I28 : ∀ (r' : Fin 100000) (k : Fin 256), idx_main_v27 (idx_main_v28 (ix2 r' k)) = ix1 k := fun r' k => funext fun a => Fin.ext (by
    match a with | ⟨0, _⟩ => rfl)
  have I46 : ∀ (r' : Fin 100000) (k : Fin 256), idx_main_v38 (idx_main_v46 (ix2 r' k)) = ix1 r' := fun r' k => funext fun a => Fin.ext (by
    match a with | ⟨0, _⟩ => rfl)
  have I41 : ∀ (r' : Fin 100000) (k : Fin 256), idx_main_v31 (idx_main_v41 (ix2 r' k)) = ix1 r' := fun r' k => funext fun a => Fin.ext (by
    match a with | ⟨0, _⟩ => rfl)
  have I34 : ∀ (r' : Fin 100000) (k : Fin 256), idx_main_v31 (idx_main_v34 (ix2 r' k)) = ix1 r' := fun r' k => funext fun a => Fin.ext (by
    match a with | ⟨0, _⟩ => rfl)
  have I37 : ∀ (r' : Fin 100000) (k : Fin 256), idx_main_v37 (ix1 r') k = ix2 r' k := fun r' k => funext fun a => Fin.ext (by
    match a with | ⟨0, _⟩ => rfl | ⟨1, _⟩ => rfl)
  have I30 : ∀ (r' : Fin 100000) (k : Fin 256), idx_main_v30 (ix1 r') k = ix2 r' k := fun r' k => funext fun a => Fin.ext (by
    match a with | ⟨0, _⟩ => rfl | ⟨1, _⟩ => rfl)
  have L26 : ∀ (r' : Fin 100000) (k : Fin 256) (i' : Fin 128), lidx_main_v26 (ix2 r' k) i' = ix2 r' i' := fun r' k i' => funext fun a => Fin.ext (by
    match a with | ⟨0, _⟩ => rfl | ⟨1, _⟩ => rfl)
  have R26 : ∀ (r' : Fin 100000) (k : Fin 256) (i' : Fin 128), ridx_main_v26 (ix2 r' k) i' = ix2 i' k := fun r' k i' => funext fun a => Fin.ext (by
    match a with | ⟨0, _⟩ => rfl | ⟨1, _⟩ => rfl)
  have I23 : ∀ (r' : Fin 100000) (i' : Fin 128), idx_main_v22 (idx_main_v23 (ix2 r' i')) = ix1 (0 : Fin 1) := fun r' i' => funext fun a => Fin.ext (by
    match a with | ⟨0, _⟩ => rfl)
  simp only [L55, R55, I57, I52, I49, I28, I46, I41, I34, I37, I30, L26, R26, I23]
  show _ = nodeAt (shapeCast S1x1 x11 h1 (ix2 (0 : Fin 1) (0 : Fin 1))) (fun a => x0 (ix2 r a))
    (fun a => val_main_v19 (F := Ideal) x0 x1 x2 x3 x4 (ix2 r a)) (fun a k => x5 (ix2 a k))
    (fun k => shapeCast S1x256 x6 h256 (ix2 (0 : Fin 1) k)) (fun k => shapeCast S1x256 x7 h256 (ix2 (0 : Fin 1) k))
    (fun k => shapeCast S1x256 x8 h256 (ix2 (0 : Fin 1) k)) (fun k j' => x9 (ix2 k j'))
    (fun j' => shapeCast S1x128 x10 h128 (ix2 (0 : Fin 1) j')) j
  unfold nodeAt outAt normAt mean256 h1At hAt
  simp only [shapeCast_a_1a_apply, Ideal.maximumf_def, Ideal.addf_def, Ideal.subf_def, Ideal.mulf_def, Ideal.hostDivf_def,
    Ideal.hostUnary_rsqrt_def, Ideal.ofBits_def, Ideal.ofBits_zero_f32, zero_add]

end Cert.ReferenceIdeal.Stages

end
-- ==== Proof.RefResult.lean ====
/-
  The reference's result as a function of its arguments, in the terms the kernel program's result is stated in: the
  node function of x, of the messages summed at the destination rows — the message function of the edge attributes, the
  gathered source rows, the projection and its bias —, and of ε and the perceptron's parameters.
-/
import proofs.«405723_j31456340476230_1_alg».proof.Proof.RefMessages
import proofs.«405723_j31456340476230_1_alg».proof.Proof.RefNodes

noncomputable section

namespace Cert.ReferenceIdeal.Stages

open Cert.ReferenceIdeal Cert.ReferenceIdeal.Gen Cert.ReferenceIdeal.Read Idealize.ShloMosaic

/-- The reference's result with its summed messages opened: the scatter-add, left as it is, of the message function. -/
theorem result_eq (x0 : (⟨S100000x128, .f32⟩ : BufTy).Contents (Elt Ideal)) (x1 : (⟨S2x640000, .i32⟩ : BufTy).Contents (Elt Ideal))
    (x2 : (⟨S640000x64, .f32⟩ : BufTy).Contents (Elt Ideal)) (x3 : (⟨S64x128, .f32⟩ : BufTy).Contents (Elt Ideal))
    (x4 : (⟨S128, .f32⟩ : BufTy).Contents (Elt Ideal)) (x5 : (⟨S128x256, .f32⟩ : BufTy).Contents (Elt Ideal))
    (x6 x7 x8 : (⟨S256, .f32⟩ : BufTy).Contents (Elt Ideal)) (x9 : (⟨S256x128, .f32⟩ : BufTy).Contents (Elt Ideal))
    (x10 : (⟨S128, .f32⟩ : BufTy).Contents (Elt Ideal)) (x11 : (⟨S1, .f32⟩ : BufTy).Contents (Elt Ideal))
    (h1 : S1.ShapeCasts S1x1) (h256 : S256.ShapeCasts S1x256) (h128 : S128.ShapeCasts S1x128) :
    val_main_v58 (F := Ideal) x0 x1 x2 x3 x4 x5 x6 x7 x8 x9 x10 x11
      = Cert.KernelIdeal.NodeArray.nodeArr x0
          (Host.scatterAdd (F := Ideal) (φ := .f32) scatter_S100000x128_S640000x1_S640000x128_1_0_0_1 (val_main_v17 (F := Ideal)) (val_main_v18 (F := Ideal) x1)
            (Cert.KernelIdeal.EdgeArray.msgArr x2 (val_main_v12 (F := Ideal) x0 x1) x3 (shapeCast S1x128 x4 h128)))
          (shapeCast S1x1 x11 h1) x5 (shapeCast S1x256 x6 h256) (shapeCast S1x256 x7 h256) (shapeCast S1x256 x8 h256) x9
          (shapeCast S1x128 x10 h128) := by
  rw [node_eq x0 x1 x2 x3 x4 x5 x6 x7 x8 x9 x10 x11 h1 h256 h128]
  have e19 : val_main_v19 (F := Ideal) x0 x1 x2 x3 x4
      = Host.scatterAdd (F := Ideal) (φ := .f32) scatter_S100000x128_S640000x1_S640000x128_1_0_0_1 (val_main_v17 (F := Ideal)) (val_main_v18 (F := Ideal) x1)
          (val_main_v14 (F := Ideal) x0 x1 x2 x3 x4) := rfl
  rw [e19, msg_eq x0 x1 x2 x3 x4 h128]

end Cert.ReferenceIdeal.Stages

end
-- ==== Proof.PreRange.lean ====
/-
  The precondition read back: it is a conjunction whose last member says that every entry v of the second row of
  edge_index satisfies -100000 ≤ v and v < 100000 as signed words.
-/
import proofs.«405723_j31456340476230_1_alg».proof.Defs
import Idealize.ShloMosaic.Lib.ReduceAll
import Idealize.ShloMosaic.Lib.ValueIdx

set_option maxRecDepth 16384

noncomputable section

namespace Cert.Proof.PreRange

open Idealize.ShloMosaic Cert.Pre_finite_inputs

variable [hP : Cert.Pre_finite_inputs.Facts]

instance : Subsingleton S_.Idx := ⟨fun _ _ => funext fun d => d.elim0⟩

theorem ofBool_eq_one (b : Bool) : BitVec.ofBool b = 1#1 ↔ b = true := by cases b <;> decide

/-- The second row of edge_index as a vector, as the precondition spells it. -/
def srcRow (ei : IVec S2x640000 32) : IVec S640000 32 :=
  shapeCast S640000 (extractStridedSlice S1x640000 ![1, 0] ei Facts.slices_S2x640000_S1x640000_1_0) Facts.shapeCasts_S1x640000_S640000

set_option maxHeartbeats 2000000 in
/-- If the precondition holds, every entry of the second row of edge_index lies between -100000 and 99999 as a signed
    word: the precondition's last conjunct is a reduction by `and` over that row of the two comparisons. -/
theorem src_in_range (a0 : FVec Ideal S100000x128 .f32) (a1 : IVec S2x640000 32) (a2 : FVec Ideal S640000x64 .f32)
    (a3 : FVec Ideal S64x128 .f32) (a4 : FVec Ideal S128 .f32) (a5 : FVec Ideal S128x256 .f32) (a6 a7 a8 : FVec Ideal S256 .f32)
    (a9 : FVec Ideal S256x128 .f32) (a10 : FVec Ideal S128 .f32) (a11 : FVec Ideal S1 .f32)
    (h : Cert.Pre_finite_inputs.fn (F := Ideal) a0 a1 a2 a3 a4 a5 a6 a7 a8 a9 a10 a11 = fun _ => 1#1) (e : S640000.Idx) :
    (4294867296#32 : BitVec 32).sle (srcRow a1 e) = true ∧ (srcRow a1 e).slt 100000#32 = true := by
  have h0 := congrFun h ValueIdx.ix0
  unfold Cert.Pre_finite_inputs.fn Cert.Pre_finite_inputs.fn_part1 Cert.Pre_finite_inputs.fn_part2 Cert.Pre_finite_inputs.fn_part3 at h0
  dsimp only at h0
  have hB := (IntOp.andi_eq_one.1 h0).2
  have hM := Host.reduce_andi_all _ _ _ _ _ hB e
  obtain ⟨g1, g2⟩ := IntOp.andi_eq_one.1 hM
  exact ⟨(ofBool_eq_one _).1 g1, (ofBool_eq_one _).1 g2⟩

end Cert.Proof.PreRange

end
-- ==== Proof.lean ====
/-
  A message-passing layer on a graph of 100000 nodes and 640000 edges, computed two ways.

  Both programs compute, for every edge, the message relu(x[src] + (edge_attr · We + be)), sum the messages at their
  destination nodes, form h = (1 + ε) · x + (summed messages), and put h through a perceptron with a layer
  normalisation in the middle: (relu(LN(h · W1 + b1) · γ + β)) · W2 + b2. The kernel program does the per-edge part in
  one tiled kernel (80 tiles of 8000 edges) and the per-node part in another (50 tiles of 2000 nodes), with the gather
  of source rows and the summation at destinations on the host between them; the reference does everything on the host.
  Over the extended reals a change of float format is the identity, a product accumulated into zero is the plain sum of
  products, and a tile of rows is computed by the same row-wise formula as the whole array, so the two results are the
  same function of the arguments entry by entry. No law of arithmetic beyond 0 + s = s is used, and the finiteness of
  the float inputs is never needed.

  The one place the programs differ is the gather: the kernel program fills a gathered row with the NaN word when its
  source index is outside 0 … 99999 (after a negative index has been counted from the end), where the reference reads
  the nearest row. Under the precondition's last conjunct — every source index v has -100000 ≤ v < 100000, the range in
  which the reference's own indexing is in range — no row is filled, and the two gathers are the same array.

  The frames of the two kernel programs are the generated ones; the reference's is its generated run with the result
  dropped. The ideal pass rewrote nothing, so there is nothing to preserve.
-/
import proofs.«405723_j31456340476230_1_alg».proof.Defs
import proofs.«405723_j31456340476230_1_alg».proof.Proof.Gen.Kernel
import proofs.«405723_j31456340476230_1_alg».proof.Proof.Gen.Kernel.Skeleton
import proofs.«405723_j31456340476230_1_alg».proof.Proof.Gen.Kernel.Launch
import proofs.«405723_j31456340476230_1_alg».proof.Proof.Gen.Kernel.Points
import proofs.«405723_j31456340476230_1_alg».proof.Proof.Gen.Kernel.Frame
import proofs.«405723_j31456340476230_1_alg».proof.Proof.Gen.KernelIdeal
import proofs.«405723_j31456340476230_1_alg».proof.Proof.Gen.KernelIdeal.Skeleton
import proofs.«405723_j31456340476230_1_alg».proof.Proof.Gen.KernelIdeal.Launch
import proofs.«405723_j31456340476230_1_alg».proof.Proof.Gen.KernelIdeal.Points
import proofs.«405723_j31456340476230_1_alg».proof.Proof.Gen.KernelIdeal.Frame
import proofs.«405723_j31456340476230_1_alg».proof.Proof.Gen.ReferenceIdeal
import proofs.«405723_j31456340476230_1_alg».proof.Proof.Gen.Pre_finite_inputs
import proofs.«405723_j31456340476230_1_alg».proof.Proof.Gen.ReferenceIdeal.Run
import proofs.«405723_j31456340476230_1_alg».proof.Proof.Gen.ReferenceIdeal.Read
import proofs.«405723_j31456340476230_1_alg».proof.Proof.KernelRunValue
import proofs.«405723_j31456340476230_1_alg».proof.Proof.ResultValue
import proofs.«405723_j31456340476230_1_alg».proof.Proof.RefResult
import proofs.«405723_j31456340476230_1_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem

namespace Claims

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the node function of x, of the messages summed at
    the destinations, and of ε and the perceptron's parameters: the kernel program by its run with the result named and
    the two regions' arrays read back, the reference by its generated run read stage by stage. -/
theorem algebraic : Cert.algebraic_KernelIdeal_ReferenceIdeal := by
  intro m ρ m' ρ' hpre hagree
  refine ⟨_, (θ_run Cert.KernelIdeal.defs _ _).mono (fun r h c =>
      ⟨(h c).1.trans (Cert.KernelIdeal.ResultValue.result m ρ c
          (fun e => Cert.Proof.PreRange.src_in_range _ _ _ _ _ _ _ _ _ _ _ _ (hpre c) e)), (h c).2⟩)
    (Cert.KernelIdeal.RunValue.run_result m ρ), ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v58_eq,
    Cert.ReferenceIdeal.Stages.result_eq _ _ _ _ _ _ _ _ _ _ _ _ Cert.KernelIdeal.Facts₀.shapeCasts_S1_S1x1
      Cert.KernelIdeal.Facts₀.shapeCasts_S256_S1x256 Cert.KernelIdeal.Facts₀.shapeCasts_S128_S1x128,
    a0, a1, a2, a3, a4, a5, a6, a7, a8, a9, a10, a11]
  rfl

end Claims

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, Claims.preserves, Claims.algebraic⟩

end Cert.Proof

end
